-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x2 : Shape := ⟨2, ![4096, 2]⟩
abbrev S8x2048x688 : Shape := ⟨3, ![8, 2048, 688]⟩
abbrev S8x688x2048 : Shape := ⟨3, ![8, 688, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x2048x688 : S_.BroadcastsInDim S8x2048x688 (![] : Fin 0 → Fin S8x2048x688.rank)
  reducesTo_S8x2048x688_S_d0_1_2 : S8x2048x688.ReducesTo [0, 1, 2] S_
  bcast_S_S8x688x2048 : S_.BroadcastsInDim S8x688x2048 (![] : Fin 0 → Fin S8x688x2048.rank)
  reducesTo_S8x688x2048_S_d0_1_2 : S8x688x2048.ReducesTo [0, 1, 2] S_

variable [Facts]

def fn_part1 {F : FTy → Type} [FloatOps F] (main_arg5 : FVec F S8x688x2048 .f32) (main_v13 : IVec S_ 1) (main_v16 : IVec S8x2048x688 1) : IVec S_ 1 :=
  let main_c_5 : IVec S_ 1 := constantI S_ 1 1#1
  let main_v17 : IVec S_ 1 := (fun x v => Host.reduce IntOp.andi x v reducesTo_S8x2048x688_S_d0_1_2 h_S_) main_v16 main_c_5
  let main_v18 : IVec S_ 1 := andi main_v13 main_v17
  let main_v19 : FVec F S8x688x2048 .f32 := Host.absf main_arg5
  let main_cst_6 : FVec F S_ .f32 := constant S_ .f32 0x7F800000#32
  let main_v20 : FVec F S8x688x2048 .f32 := broadcastInDim S8x688x2048 ![] bcast_S_S8x688x2048 main_cst_6
  let main_v21 : IVec S8x688x2048 1 := cmpf .olt main_v19 main_v20
  let main_c_7 : IVec S_ 1 := constantI S_ 1 1#1
  let main_v22 : IVec S_ 1 := (fun x v => Host.reduce IntOp.andi x v reducesTo_S8x688x2048_S_d0_1_2 h_S_) main_v21 main_c_7
  let main_v23 : IVec S_ 1 := andi main_v18 main_v22
  main_v23

def fn {F : FTy → Type} [FloatOps F] (main_arg0 : FVec F S4096x2048 .f32) (main_arg1 : IVec S4096x2 32) (main_arg2 : FVec F S4096x2 .f32) (main_arg3 : FVec F S8x2048x688 .f32) (main_arg4 : FVec F S8x2048x688 .f32) (main_arg5 : FVec F S8x688x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x2048x688 .f32 := Host.absf main_arg3
  let main_cst_2 : FVec F S_ .f32 := constant S_ .f32 0x7F800000#32
  let main_v10 : FVec F S8x2048x688 .f32 := broadcastInDim S8x2048x688 ![] bcast_S_S8x2048x688 main_cst_2
  let main_v11 : IVec S8x2048x688 1 := cmpf .olt main_v9 main_v10
  let main_c_3 : IVec S_ 1 := constantI S_ 1 1#1
  let main_v12 : IVec S_ 1 := (fun x v => Host.reduce IntOp.andi x v reducesTo_S8x2048x688_S_d0_1_2 h_S_) main_v11 main_c_3
  let main_v13 : IVec S_ 1 := andi main_v8 main_v12
  let main_v14 : FVec F S8x2048x688 .f32 := Host.absf main_arg4
  let main_cst_4 : FVec F S_ .f32 := constant S_ .f32 0x7F800000#32
  let main_v15 : FVec F S8x2048x688 .f32 := broadcastInDim S8x2048x688 ![] bcast_S_S8x2048x688 main_cst_4
  let main_v16 : IVec S8x2048x688 1 := cmpf .olt main_v14 main_v15
  fn_part1 (F := F) main_arg5 main_v13 main_v16
-- ==== Kernel.lean ====
abbrev S4096x2048 : Shape := ⟨2, ![4096, 2048]⟩
abbrev S4096x2 : Shape := ⟨2, ![4096, 2]⟩
abbrev S8x2048x688 : Shape := ⟨3, ![8, 2048, 688]⟩
abbrev S8x688x2048 : Shape := ⟨3, ![8, 688, 2048]⟩
abbrev S8192 : Shape := ⟨1, ![8192]⟩
abbrev S4096 : Shape := ⟨1, ![4096]⟩
abbrev S_ : Shape := ⟨0, ![]⟩
abbrev S8192x1 : Shape := ⟨2, ![8192, 1]⟩
abbrev S8 : Shape := ⟨1, ![8]⟩
abbrev S12289x2048 : Shape := ⟨2, ![12289, 2048]⟩
abbrev S8192x2048 : Shape := ⟨2, ![8192, 2048]⟩
abbrev S12288x2048 : Shape := ⟨2, ![12288, 2048]⟩
abbrev S8x1536x2048 : Shape := ⟨3, ![8, 1536, 2048]⟩
abbrev S1x512x2048 : Shape := ⟨3, ![1, 512, 2048]⟩
abbrev S1x2048x688 : Shape := ⟨3, ![1, 2048, 688]⟩
abbrev S1x688x2048 : Shape := ⟨3, ![1, 688, 2048]⟩
abbrev S512x2048 : Shape := ⟨2, ![512, 2048]⟩
abbrev S2048x688 : Shape := ⟨2, ![2048, 688]⟩
abbrev S688x2048 : Shape := ⟨2, ![688, 2048]⟩
abbrev S512x688 : Shape := ⟨2, ![512, 688]⟩

abbrev nBuf : Space → Nat
  | .hbm => 145
  | .vmem => 10
  | .smem => 0
  | _ => 0

abbrev hbmTy0_0 (i : Nat) : BufTy := match i % 128 with
  | 0 => ⟨S4096x2048, .f32⟩
  | 1 => ⟨S4096x2, .i32⟩
  | 2 => ⟨S4096x2, .f32⟩
  | 3 => ⟨S8x2048x688, .f32⟩
  | 4 => ⟨S8x2048x688, .f32⟩
  | 5 => ⟨S8x688x2048, .f32⟩
  | 6 => ⟨S8192, .i32⟩
  | 7 => ⟨S8192, .f32⟩
  | 8 => ⟨S4096, .i32⟩
  | 9 => ⟨S4096x2, .i32⟩
  | 10 => ⟨S8192, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192, .i32⟩
  | 41 => ⟨S_, .i32⟩
  | 42 => ⟨S8, .i32⟩
  | 43 => ⟨S_, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S_, .i32⟩
  | 56 => ⟨S8192, .i32⟩
  | 57 => ⟨S8, .i32⟩
  | 58 => ⟨S_, .i32⟩
  | 59 => ⟨S_, .i32⟩
  | 60 => ⟨S8, .i32⟩
  | 61 => ⟨S8, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192, .i32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S_, .i32⟩
  | 81 => ⟨S_, .i32⟩
  | 82 => ⟨S8192, .i32⟩
  | 83 => ⟨S8192, .i32⟩
  | 84 => ⟨S_, .f32⟩
  | 85 => ⟨S12289x2048, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x2048, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S12289x2048, .f32⟩
  | 104 => ⟨S12288x2048, .f32⟩
  | 105 => ⟨S8x1536x2048, .f32⟩
  | 106 => ⟨S8x1536x2048, .bf16⟩
  | 107 => ⟨S8x2048x688, .bf16⟩
  | 108 => ⟨S8x2048x688, .bf16⟩
  | 109 => ⟨S8x688x2048, .bf16⟩
  | 110 => ⟨S8x1536x2048, .f32⟩
  | 111 => ⟨S12288x2048, .f32⟩
  | 112 => ⟨S_, .i32⟩
  | 113 => ⟨S8192, .i32⟩
  | 114 => ⟨S8192, .i32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x2048, .f32⟩
  | 124 => ⟨S_, .f32⟩
  | 125 => ⟨S8192, .f32⟩
  | 126 => ⟨S8192, .f32⟩
  | 127 => ⟨S_, .f32⟩
  | _ => ⟨S4096x2048, .f32⟩

abbrev hbmTy0_1 (i : Nat) : BufTy := match i % 128 with
  | 0 => ⟨S_, .f32⟩
  | 1 => ⟨S8192, .f32⟩
  | 2 => ⟨S8192, .f32⟩
  | 3 => ⟨S8192x1, .f32⟩
  | 4 => ⟨S_, .f32⟩
  | 5 => ⟨S4096x2048, .f32⟩
  | 6 => ⟨S8192x2048, .f32⟩
  | 7 => ⟨S8192x2048, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S1x512x2048, .bf16⟩
  | .local _ .vmem, ⟨1, _⟩ => ⟨S1x512x2048, .bf16⟩
  | .local _ .vmem, ⟨2, _⟩ => ⟨S1x2048x688, .bf16⟩
  | .local _ .vmem, ⟨3, _⟩ => ⟨S1x2048x688, .bf16⟩
  | .local _ .vmem, ⟨4, _⟩ => ⟨S1x2048x688, .bf16⟩
  | .local _ .vmem, ⟨5, _⟩ => ⟨S1x2048x688, .bf16⟩
  | .local _ .vmem, ⟨6, _⟩ => ⟨S1x688x2048, .bf16⟩
  | .local _ .vmem, ⟨7, _⟩ => ⟨S1x688x2048, .bf16⟩
  | .local _ .vmem, ⟨8, _⟩ => ⟨S1x512x2048, .f32⟩
  | .local _ .vmem, ⟨9, _⟩ => ⟨S1x512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_call2_call0_c : Ref sig .tc := ⟨.hbm, 58, rfl⟩
abbrev main_call2_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_14 : Ref sig .tc := ⟨.hbm, 80, rfl⟩
abbrev main_call3_v0 : Ref sig .tc := ⟨.hbm, 81, rfl⟩
abbrev main_call3_v1 : Ref sig .tc := ⟨.hbm, 82, rfl⟩
abbrev main_v53 : Ref sig .tc := ⟨.hbm, 83, rfl⟩
abbrev main_cst : Ref sig .tc := ⟨.hbm, 84, rfl⟩
abbrev main_v54 : Ref sig .tc := ⟨.hbm, 85, rfl⟩
abbrev main_c_15 : Ref sig .tc := ⟨.hbm, 86, rfl⟩
abbrev main_v55 : Ref sig .tc := ⟨.hbm, 87, rfl⟩
abbrev main_v56 : Ref sig .tc := ⟨.hbm, 88, rfl⟩
abbrev main_c_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_c_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_c_21 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_22 : Ref sig .tc := ⟨.hbm, 124, rfl⟩
abbrev main_v86 : Ref sig .tc := ⟨.hbm, 125, rfl⟩
abbrev main_v87 : Ref sig .tc := ⟨.hbm, 126, rfl⟩
abbrev main_cst_23 : Ref sig .tc := ⟨.hbm, 127, rfl⟩
abbrev main_call4_v0 : Ref sig .tc := ⟨.hbm, 128, rfl⟩
abbrev main_call4_v1 : Ref sig .tc := ⟨.hbm, 129, rfl⟩
abbrev main_v88 : Ref sig .tc := ⟨.hbm, 130, rfl⟩
abbrev main_v89 : Ref sig .tc := ⟨.hbm, 131, rfl⟩
abbrev main_cst_24 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_25 : Ref sig .tc := ⟨.hbm, 136, rfl⟩
abbrev main_v93 : Ref sig .tc := ⟨.hbm, 137, rfl⟩
abbrev main_v94 : Ref sig .tc := ⟨.hbm, 138, rfl⟩
abbrev main_c_26 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x688x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096x2_S8192 : S4096x2.ShapeCasts S8192
  bcast_S4096_S4096x2_0 : S4096.BroadcastsInDim S4096x2 (![0] : Fin 1 → Fin S4096x2.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S12289x2048 : S_.BroadcastsInDim S12289x2048 (![] : Fin 0 → Fin S12289x2048.rank)
  slices_S12289x2048_S12288x2048_0_0 : S12289x2048.Slices ![0, 0] S12288x2048
  shapeCasts_S12288x2048_S8x1536x2048 : S12288x2048.ShapeCasts S8x1536x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x688_S1x2048x688_0_0_0 : ∀ a, (![0, 0, 0] : Fin 3 → Nat) a + S1x2048x688.size a ≤ S1x2048x688.size a
  h_S1x2048x688 : 0 < S1x2048x688.numel
  shapeCasts_S1x2048x688_S2048x688 : S1x2048x688.ShapeCasts S2048x688
  inb_S1x688x2048_S1x688x2048_0_0_0 : ∀ a, (![0, 0, 0] : Fin 3 → Nat) a + S1x688x2048.size a ≤ S1x688x2048.size a
  h_S1x688x2048 : 0 < S1x688x2048.numel
  shapeCasts_S1x688x2048_S688x2048 : S1x688x2048.ShapeCasts S688x2048
  shapeCasts_S512x2048_S1x512x2048 : S512x2048.ShapeCasts S1x512x2048
  shapeCasts_S8x1536x2048_S12288x2048 : S8x1536x2048.ShapeCasts S12288x2048
  bcast_S_S4096x2048 : S_.BroadcastsInDim S4096x2048 (![] : Fin 0 → Fin S4096x2048.rank)
  bcast_S8192x1_S8192x2048_0_1 : S8192x1.BroadcastsInDim S8192x2048 (![0, 1] : Fin 2 → Fin S8192x2048.rank)
  gather_S8192_S8192x1_S8192_n_0_n_n_0_1_1_wf : GatherDims.WF S8192 S8192x1 S8192 [] [0] [] [0] [] 1 ![1]
  scatter_S8_S8192x1_S8192_n_0_0_1_wf : ScatterDims.WF S8 S8192x1 S8192 [] [0] [0] 1
  gather_S8_S8192x1_S8192_n_0_n_n_0_1_1_wf : GatherDims.WF S8 S8192x1 S8192 [] [0] [] [0] [] 1 ![1]
  gather_S4096x2048_S8192x1_S8192x2048_1_0_n_n_0_1_12048_wf : GatherDims.WF S4096x2048 S8192x1 S8192x2048 [1] [0] [] [0] [] 1 ![1, 2048]
  scatter_S12289x2048_S8192x1_S8192x2048_1_0_0_1_wf : ScatterDims.WF S12289x2048 S8192x1 S8192x2048 [1] [0] [0] 1
  dot_S512x2048_S2048x688_S512x688_1_0_0_1_n_n_wf : DotDims.WF S512x2048 S2048x688 S512x688 [1] [0] [0] [1] [] []
  dot_S512x688_S688x2048_S512x2048_1_0_0_1_n_n_wf : DotDims.WF S512x688 S688x2048 S512x2048 [1] [0] [0] [1] [] []
  gather_S12288x2048_S8192x1_S8192x2048_1_0_n_n_0_1_12048_wf : GatherDims.WF S12288x2048 S8192x1 S8192x2048 [1] [0] [] [0] [] 1 ![1, 2048]
  scatter_S4096x2048_S8192x1_S8192x2048_1_0_0_1_wf : ScatterDims.WF S4096x2048 S8192x1 S8192x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1536x2048.size a
  hwx0_0 : ∀ i : grid0.Coords, EltTy.bits .bf16 = 32 ∨ (Rect.block (s := S8x1536x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x688.size a ≤ S8x2048x688.size a
  hwx0_1 : ∀ i : grid0.Coords, EltTy.bits .bf16 = 32 ∨ (Rect.block (s := S8x2048x688) S1x2048x688.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x688.size a ≤ S8x2048x688.size a
  hwx0_2 : ∀ i : grid0.Coords, EltTy.bits .bf16 = 32 ∨ (Rect.block (s := S8x2048x688) S1x2048x688.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x688x2048.size a ≤ S8x688x2048.size a
  hwx0_3 : ∀ i : grid0.Coords, EltTy.bits .bf16 = 32 ∨ (Rect.block (s := S8x688x2048) S1x688x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x1536x2048.size a
  hwx0_4 : ∀ i : grid0.Coords, EltTy.bits .f32 = 32 ∨ (Rect.block (s := S8x1536x2048) S1x512x2048.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf
def gather_S8_S8192x1_S8192_n_0_n_n_0_1_1 : GatherDims S8 S8192x1 S8192 where
  offsetDims := []
  collapsedSliceDims := [0]
  operandBatchingDims := []
  startIndicesBatchingDims := []
  startIndexMap := [0]
  indexVectorDim := 1
  sliceSizes := ![1]
  wf := gather_S8_S8192x1_S8192_n_0_n_n_0_1_1_wf
def gather_S4096x2048_S8192x1_S8192x2048_1_0_n_n_0_1_12048 : GatherDims S4096x2048 S8192x1 S8192x2048 where
  offsetDims := [1]
  collapsedSliceDims := [0]
  operandBatchingDims := []
  startIndicesBatchingDims := []
  startIndexMap := [0]
  indexVectorDim := 1
  sliceSizes := ![1, 2048]
  wf := gather_S4096x2048_S8192x1_S8192x2048_1_0_n_n_0_1_12048_wf
def scatter_S12289x2048_S8192x1_S8192x2048_1_0_0_1 : ScatterDims S12289x2048 S8192x1 S8192x2048 where
  updateWindowDims := [1]
  insertedWindowDims := [0]
  scatterDimsToOperandDims := [0]
  indexVectorDim := 1
  wf := scatter_S12289x2048_S8192x1_S8192x2048_1_0_0_1_wf
def dot_S512x2048_S2048x688_S512x688_1_0_0_1_n_n : DotDims S512x2048 S2048x688 S512x688 where
  lhsContracting := [1]
  rhsContracting := [0]
  lhsNonContracting := [0]
  rhsNonContracting := [1]
  lhsBatch := []
  rhsBatch := []
  wf := dot_S512x2048_S2048x688_S512x688_1_0_0_1_n_n_wf
def dot_S512x688_S688x2048_S512x2048_1_0_0_1_n_n : DotDims S512x688 S688x2048 S512x2048 where
  lhsContracting := [1]
  rhsContracting := [0]
  lhsNonContracting := [0]
  rhsNonContracting := [1]
  lhsBatch := []
  rhsBatch := []
  wf := dot_S512x688_S688x2048_S512x2048_1_0_0_1_n_n_wf
def gather_S12288x2048_S8192x1_S8192x2048_1_0_n_n_0_1_12048 : GatherDims S12288x2048 S8192x1 S8192x2048 where
  offsetDims := [1]
  collapsedSliceDims := [0]
  operandBatchingDims := []
  startIndicesBatchingDims := []
  startIndexMap := [0]
  indexVectorDim := 1
  sliceSizes := ![1, 2048]
  wf := gather_S12288x2048_S8192x1_S8192x2048_1_0_n_n_0_1_12048_wf
def scatter_S4096x2048_S8192x1_S8192x2048_1_0_0_1 : ScatterDims S4096x2048 S8192x1 S8192x2048 where
  updateWindowDims := [1]
  insertedWindowDims := [0]
  scatterDimsToOperandDims := [0]
  indexVectorDim := 1
  wf := scatter_S4096x2048_S8192x1_S8192x2048_1_0_0_1_wf

abbrev win0_0 : Pipeline.Window sig grid0 :=
  Pipeline.Window.ofSpec (Memref.whole main_v71) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S1x2048x688.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v73) S1x2048x688.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S1x688x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v75) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x2 : Shape := ⟨2, ![4096, 2]⟩
abbrev S8x2048x688 : Shape := ⟨3, ![8, 2048, 688]⟩
abbrev S8x688x2048 : Shape := ⟨3, ![8, 688, 2048]⟩
abbrev S8192 : Shape := ⟨1, ![8192]⟩
abbrev S4096 : Shape := ⟨1, ![4096]⟩
abbrev S_ : Shape := ⟨0, ![]⟩
abbrev S8192x1 : Shape := ⟨2, ![8192, 1]⟩
abbrev S8 : Shape := ⟨1, ![8]⟩
abbrev S12289x2048 : Shape := ⟨2, ![12289, 2048]⟩
abbrev S8192x2048 : Shape := ⟨2, ![8192, 2048]⟩
abbrev S12288x2048 : Shape := ⟨2, ![12288, 2048]⟩
abbrev S8x1536x2048 : Shape := ⟨3, ![8, 1536, 2048]⟩
abbrev S8x1536x688 : Shape := ⟨3, ![8, 1536, 688]⟩

abbrev nBuf : Space → Nat
  | .hbm => 153
  | .vmem => 0
  | .smem => 0
  | _ => 0

abbrev hbmTy0_0 (i : Nat) : BufTy := match i % 128 with
  | 0 => ⟨S4096x2048, .f32⟩
  | 1 => ⟨S4096x2, .i32⟩
  | 2 => ⟨S4096x2, .f32⟩
  | 3 => ⟨S8x2048x688, .f32⟩
  | 4 => ⟨S8x2048x688, .f32⟩
  | 5 => ⟨S8x688x2048, .f32⟩
  | 6 => ⟨S8192, .i32⟩
  | 7 => ⟨S8192, .f32⟩
  | 8 => ⟨S4096, .i32⟩
  | 9 => ⟨S4096x2, .i32⟩
  | 10 => ⟨S8192, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192, .i32⟩
  | 41 => ⟨S_, .i32⟩
  | 42 => ⟨S8, .i32⟩
  | 43 => ⟨S_, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S_, .i32⟩
  | 56 => ⟨S8192, .i32⟩
  | 57 => ⟨S8, .i32⟩
  | 58 => ⟨S_, .i32⟩
  | 59 => ⟨S_, .i32⟩
  | 60 => ⟨S8, .i32⟩
  | 61 => ⟨S8, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192, .i32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S_, .i32⟩
  | 81 => ⟨S_, .i32⟩
  | 82 => ⟨S8192, .i32⟩
  | 83 => ⟨S8192, .i32⟩
  | 84 => ⟨S_, .f32⟩
  | 85 => ⟨S12289x2048, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x2048, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S12289x2048, .f32⟩
  | 104 => ⟨S12288x2048, .f32⟩
  | 105 => ⟨S8x1536x2048, .f32⟩
  | 106 => ⟨S8x1536x688, .f32⟩
  | 107 => ⟨S8x1536x688, .f32⟩
  | 108 => ⟨S8x1536x688, .f32⟩
  | 109 => ⟨S_, .f32⟩
  | 110 => ⟨S8x1536x688, .f32⟩
  | 111 => ⟨S8x1536x688, .f32⟩
  | 112 => ⟨S_, .f32⟩
  | 113 => ⟨S8x1536x688, .f32⟩
  | 114 => ⟨S8x1536x688, .f32⟩
  | 115 => ⟨S8x1536x688, .f32⟩
  | 116 => ⟨S8x1536x688, .f32⟩
  | 117 => ⟨S8x1536x688, .f32⟩
  | 118 => ⟨S8x1536x2048, .f32⟩
  | 119 => ⟨S12288x2048, .f32⟩
  | 120 => ⟨S_, .i32⟩
  | 121 => ⟨S8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S4096x2048, .f32⟩

abbrev hbmTy0_1 (i : Nat) : BufTy := match i % 128 with
  | 0 => ⟨S8192, .i32⟩
  | 1 => ⟨S8192, .i32⟩
  | 2 => ⟨S8192x1, .i32⟩
  | 3 => ⟨S8192x2048, .f32⟩
  | 4 => ⟨S_, .f32⟩
  | 5 => ⟨S8192, .f32⟩
  | 6 => ⟨S8192, .f32⟩
  | 7 => ⟨S_, .f32⟩
  | 8 => ⟨S_, .f32⟩
  | 9 => ⟨S8192, .f32⟩
  | 10 => ⟨S8192, .f32⟩
  | 11 => ⟨S8192x1, .f32⟩
  | 12 => ⟨S_, .f32⟩
  | 13 => ⟨S4096x2048, .f32⟩
  | 14 => ⟨S8192x2048, .f32⟩
  | 15 => ⟨S8192x2048, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_call2_call0_c : Ref sig .tc := ⟨.hbm, 58, rfl⟩
abbrev main_call2_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_14 : Ref sig .tc := ⟨.hbm, 80, rfl⟩
abbrev main_call3_v0 : Ref sig .tc := ⟨.hbm, 81, rfl⟩
abbrev main_call3_v1 : Ref sig .tc := ⟨.hbm, 82, rfl⟩
abbrev main_v53 : Ref sig .tc := ⟨.hbm, 83, rfl⟩
abbrev main_cst : Ref sig .tc := ⟨.hbm, 84, rfl⟩
abbrev main_v54 : Ref sig .tc := ⟨.hbm, 85, rfl⟩
abbrev main_c_15 : Ref sig .tc := ⟨.hbm, 86, rfl⟩
abbrev main_v55 : Ref sig .tc := ⟨.hbm, 87, rfl⟩
abbrev main_v56 : Ref sig .tc := ⟨.hbm, 88, rfl⟩
abbrev main_c_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_c_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call4_v0 : Ref sig .tc := ⟨.hbm, 107, rfl⟩
abbrev main_call4_v1 : Ref sig .tc := ⟨.hbm, 108, rfl⟩
abbrev main_call4_cst : Ref sig .tc := ⟨.hbm, 109, rfl⟩
abbrev main_call4_v2 : Ref sig .tc := ⟨.hbm, 110, rfl⟩
abbrev main_call4_v3 : Ref sig .tc := ⟨.hbm, 111, rfl⟩
abbrev main_call4_cst_0 : Ref sig .tc := ⟨.hbm, 112, rfl⟩
abbrev main_call4_v4 : Ref sig .tc := ⟨.hbm, 113, rfl⟩
abbrev main_call4_v5 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_19 : Ref sig .tc := ⟨.hbm, 120, rfl⟩
abbrev main_v77 : Ref sig .tc := ⟨.hbm, 121, rfl⟩
abbrev main_v78 : Ref sig .tc := ⟨.hbm, 122, rfl⟩
abbrev main_c_20 : Ref sig .tc := ⟨.hbm, 123, rfl⟩
abbrev main_v79 : Ref sig .tc := ⟨.hbm, 124, rfl⟩
abbrev main_v80 : Ref sig .tc := ⟨.hbm, 125, rfl⟩
abbrev main_c_21 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_22 : Ref sig .tc := ⟨.hbm, 132, rfl⟩
abbrev main_v86 : Ref sig .tc := ⟨.hbm, 133, rfl⟩
abbrev main_v87 : Ref sig .tc := ⟨.hbm, 134, rfl⟩
abbrev main_cst_23 : Ref sig .tc := ⟨.hbm, 135, rfl⟩
abbrev main_call5_v0 : Ref sig .tc := ⟨.hbm, 136, rfl⟩
abbrev main_call5_v1 : Ref sig .tc := ⟨.hbm, 137, rfl⟩
abbrev main_v88 : Ref sig .tc := ⟨.hbm, 138, rfl⟩
abbrev main_v89 : Ref sig .tc := ⟨.hbm, 139, rfl⟩
abbrev main_cst_24 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_25 : Ref sig .tc := ⟨.hbm, 144, rfl⟩
abbrev main_v93 : Ref sig .tc := ⟨.hbm, 145, rfl⟩
abbrev main_v94 : Ref sig .tc := ⟨.hbm, 146, rfl⟩
abbrev main_c_26 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩

abbrev nD : Nat := 1
abbrev τ : Topo := Topo.v7x

variable {F : FTy → Type} [FloatOps F]

class Facts₀ : Prop where
  shapeCasts_S4096x2_S8192 : S4096x2.ShapeCasts S8192
  bcast_S4096_S4096x2_0 : S4096.BroadcastsInDim S4096x2 (![0] : Fin 1 → Fin S4096x2.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S12289x2048 : S_.BroadcastsInDim S12289x2048 (![] : Fin 0 → Fin S12289x2048.rank)
  slices_S12289x2048_S12288x2048_0_0 : S12289x2048.Slices ![0, 0] S12288x2048
  shapeCasts_S12288x2048_S8x1536x2048 : S12288x2048.ShapeCasts S8x1536x2048
  bcast_S_S8x1536x688 : S_.BroadcastsInDim S8x1536x688 (![] : Fin 0 → Fin S8x1536x688.rank)
  shapeCasts_S8x1536x2048_S12288x2048 : S8x1536x2048.ShapeCasts S12288x2048
  bcast_S_S4096x2048 : S_.BroadcastsInDim S4096x2048 (![] : Fin 0 → Fin S4096x2048.rank)
  bcast_S8192x1_S8192x2048_0_1 : S8192x1.BroadcastsInDim S8192x2048 (![0, 1] : Fin 2 → Fin S8192x2048.rank)
  gather_S8192_S8192x1_S8192_n_0_n_n_0_1_1_wf : GatherDims.WF S8192 S8192x1 S8192 [] [0] [] [0] [] 1 ![1]
  scatter_S8_S8192x1_S8192_n_0_0_1_wf : ScatterDims.WF S8 S8192x1 S8192 [] [0] [0] 1
  gather_S8_S8192x1_S8192_n_0_n_n_0_1_1_wf : GatherDims.WF S8 S8192x1 S8192 [] [0] [] [0] [] 1 ![1]
  gather_S4096x2048_S8192x1_S8192x2048_1_0_n_n_0_1_12048_wf : GatherDims.WF S4096x2048 S8192x1 S8192x2048 [1] [0] [] [0] [] 1 ![1, 2048]
  scatter_S12289x2048_S8192x1_S8192x2048_1_0_0_1_wf : ScatterDims.WF S12289x2048 S8192x1 S8192x2048 [1] [0] [0] 1
  dot_S8x1536x2048_S8x2048x688_S8x1536x688_2_1_1_2_0_0_wf : DotDims.WF S8x1536x2048 S8x2048x688 S8x1536x688 [2] [1] [1] [2] [0] [0]
  dot_S8x1536x688_S8x688x2048_S8x1536x2048_2_1_1_2_0_0_wf : DotDims.WF S8x1536x688 S8x688x2048 S8x1536x2048 [2] [1] [1] [2] [0] [0]
  gather_S12288x2048_S8192x1_S8192x2048_1_0_n_n_0_1_12048_wf : GatherDims.WF S12288x2048 S8192x1 S8192x2048 [1] [0] [] [0] [] 1 ![1, 2048]
  scatter_S4096x2048_S8192x1_S8192x2048_1_0_0_1_wf : ScatterDims.WF S4096x2048 S8192x1 S8192x2048 [1] [0] [0] 1

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf
def gather_S8_S8192x1_S8192_n_0_n_n_0_1_1 : GatherDims S8 S8192x1 S8192 where
  offsetDims := []
  collapsedSliceDims := [0]
  operandBatchingDims := []
  startIndicesBatchingDims := []
  startIndexMap := [0]
  indexVectorDim := 1
  sliceSizes := ![1]
  wf := gather_S8_S8192x1_S8192_n_0_n_n_0_1_1_wf
def gather_S4096x2048_S8192x1_S8192x2048_1_0_n_n_0_1_12048 : GatherDims S4096x2048 S8192x1 S8192x2048 where
  offsetDims := [1]
  collapsedSliceDims := [0]
  operandBatchingDims := []
  startIndicesBatchingDims := []
  startIndexMap := [0]
  indexVectorDim := 1
  sliceSizes := ![1, 2048]
  wf := gather_S4096x2048_S8192x1_S8192x2048_1_0_n_n_0_1_12048_wf
def scatter_S12289x2048_S8192x1_S8192x2048_1_0_0_1 : ScatterDims S12289x2048 S8192x1 S8192x2048 where
  updateWindowDims := [1]
  insertedWindowDims := [0]
  scatterDimsToOperandDims := [0]
  indexVectorDim := 1
  wf := scatter_S12289x2048_S8192x1_S8192x2048_1_0_0_1_wf
def dot_S8x1536x2048_S8x2048x688_S8x1536x688_2_1_1_2_0_0 : DotDims S8x1536x2048 S8x2048x688 S8x1536x688 where
  lhsContracting := [2]
  rhsContracting := [1]
  lhsNonContracting := [1]
  rhsNonContracting := [2]
  lhsBatch := [0]
  rhsBatch := [0]
  wf := dot_S8x1536x2048_S8x2048x688_S8x1536x688_2_1_1_2_0_0_wf
def dot_S8x1536x688_S8x688x2048_S8x1536x2048_2_1_1_2_0_0 : DotDims S8x1536x688 S8x688x2048 S8x1536x2048 where
  lhsContracting := [2]
  rhsContracting := [1]
  lhsNonContracting := [1]
  rhsNonContracting := [2]
  lhsBatch := [0]
  rhsBatch := [0]
  wf := dot_S8x1536x688_S8x688x2048_S8x1536x2048_2_1_1_2_0_0_wf
def gather_S12288x2048_S8192x1_S8192x2048_1_0_n_n_0_1_12048 : GatherDims S12288x2048 S8192x1 S8192x2048 where
  offsetDims := [1]
  collapsedSliceDims := [0]
  operandBatchingDims := []
  startIndicesBatchingDims := []
  startIndexMap := [0]
  indexVectorDim := 1
  sliceSizes := ![1, 2048]
  wf := gather_S12288x2048_S8192x1_S8192x2048_1_0_n_n_0_1_12048_wf
def scatter_S4096x2048_S8192x1_S8192x2048_1_0_0_1 : ScatterDims S4096x2048 S8192x1 S8192x2048 where
  updateWindowDims := [1]
  insertedWindowDims := [0]
  scatterDimsToOperandDims := [0]
  indexVectorDim := 1
  wf := scatter_S4096x2048_S8192x1_S8192x2048_1_0_0_1_wf

class Facts : Prop extends Facts₀ where

variable [Facts]
-- ==== Proof.RefRun.lean ====
/-
  The reference program's run: its @main is the straight line of the listed host operations, so every weakly fair
  execution ends with each buffer at the operations' fold over the launch contents.
-/
import proofs.«151311_j74380243632185_1_alg».proof.Proof.RefOps
import Idealize.ShloMosaic.Lib.StableHlo.Run
import Idealize.ShloMosaic.Lib.Pipeline.Regions

noncomputable section

open scoped BigOperators

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- Every host operation of the reference's @main, stretch by stretch, in order. -/
abbrev allOps : List (List (HloOp τ sig (Elt F))) :=
  [pre0, pre1, pre2, pre3, pre4, pre5, pre6, pre7, pre8, mid0, mid1, mid2, tail0, tail1, tail2]

/-! ## @main as one straight line

Each printed window of @main is the chain of its pieces (a piece ends where an outlined function's body begins or
ends); the three windows in a row are the chain of all pieces; and a chain of straight lines is the straight line of
the concatenation, which is the same list however it is cut. -/

/-- The first window is the chain of its seven pieces, the last in tail position. -/
theorem main_part0_chain (c : Dev nD) : main_part0 (F := F) c = (Pipeline.chainK
  [ seq w0_0, seq w0_1, seq w0_2, seq w0_3, seq w0_4, seq w0_5 ]
  (seq w0_6) : Prog (TpuEff nD τ sig (Elt F) (Pipeline.Sig Λ₀ (Fin 0) fun p => (pcfgs (F := F) p).Adm) .tc) PUnit) := by
  chain_rfl

/-- The second window is the chain of its seven pieces, the last in tail position. -/
theorem main_part1_chain (c : Dev nD) : main_part1 (F := F) c = (Pipeline.chainK
  [ seq w1_0, seq w1_1, seq w1_2, seq w1_3, seq w1_4, seq w1_5 ]
  (seq w1_6) : Prog (TpuEff nD τ sig (Elt F) (Pipeline.Sig Λ₀ (Fin 0) fun p => (pcfgs (F := F) p).Adm) .tc) PUnit) := by
  chain_rfl

/-- The last window is the chain of its one piece. -/
theorem main_part2_chain (c : Dev nD) : main_part2 (F := F) c = (Pipeline.chain
  [ seq w2_0 ] : Prog (TpuEff nD τ sig (Elt F) (Pipeline.Sig Λ₀ (Fin 0) fun p => (pcfgs (F := F) p).Adm) .tc) PUnit) := by
  chain_rfl

/-- @main is the straight line of all the listed operations: the windows' chains joined, then both sides are the
    same sequence of steps once sequencing is reassociated. -/
theorem main_eq (c : Dev nD) : main (F := F) c = (seq (List.flatten (allOps (F := F))) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- A property of every operation of every stretch is a property of every operation of the whole line. -/
theorem forall_flatten {α : Type _} {P : α → Prop} : ∀ {ls : List (List α)}, (ls.Forall fun l => l.Forall P) → ls.flatten.Forall P
  | [], _ => by simp only [List.flatten_nil, List.Forall]
  | l :: ls, h => by
    rw [List.flatten_cons, List.forall_iff_forall_mem]
    rw [List.forall_cons] at h
    intro a ha
    rcases List.mem_append.mp ha with ha | ha
    · exact List.forall_iff_forall_mem.mp h.1 a ha
    · exact List.forall_iff_forall_mem.mp (forall_flatten h.2) a ha

/-- Every operation touches TensorCore references only. -/
theorem allOps_sub : (List.flatten (allOps (F := F))).Forall fun op => op.bufs ⊆ tcRefs τ sig :=
  forall_flatten (by simp only [List.Forall]; exact ⟨pre0_sub, pre1_sub, pre2_sub, pre3_sub, pre4_sub, pre5_sub, pre6_sub, pre7_sub, pre8_sub, mid0_sub, mid1_sub, mid2_sub, tail0_sub, tail1_sub, tail2_sub⟩)

theorem pre0_fresh : (pre0 : List (HloOp τ sig (Elt F))).Forall fun op => op.fresh = ∅ := by
  simp only [List.Forall]; repeat' constructor
theorem pre1_fresh : (pre1 : List (HloOp τ sig (Elt F))).Forall fun op => op.fresh = ∅ := by
  simp only [List.Forall]; repeat' constructor
theorem pre2_fresh : (pre2 : List (HloOp τ sig (Elt F))).Forall fun op => op.fresh = ∅ := by
  simp only [List.Forall]; repeat' constructor
theorem pre3_fresh : (pre3 : List (HloOp τ sig (Elt F))).Forall fun op => op.fresh = ∅ := by
  simp only [List.Forall]; repeat' constructor
theorem pre4_fresh : (pre4 : List (HloOp τ sig (Elt F))).Forall fun op => op.fresh = ∅ := by
  simp only [List.Forall]; repeat' constructor
theorem pre5_fresh : (pre5 : List (HloOp τ sig (Elt F))).Forall fun op => op.fresh = ∅ := by
  simp only [List.Forall]; repeat' constructor
theorem pre6_fresh : (pre6 : List (HloOp τ sig (Elt F))).Forall fun op => op.fresh = ∅ := by
  simp only [List.Forall]; repeat' constructor
theorem pre7_fresh : (pre7 : List (HloOp τ sig (Elt F))).Forall fun op => op.fresh = ∅ := by
  simp only [List.Forall]; repeat' constructor
theorem pre8_fresh : (pre8 : List (HloOp τ sig (Elt F))).Forall fun op => op.fresh = ∅ := by
  simp only [List.Forall]; repeat' constructor
theorem mid0_fresh : (mid0 : List (HloOp τ sig (Elt F))).Forall fun op => op.fresh = ∅ := by
  simp only [List.Forall]; repeat' constructor
theorem mid1_fresh : (mid1 : List (HloOp τ sig (Elt F))).Forall fun op => op.fresh = ∅ := by
  simp only [List.Forall]; repeat' constructor
theorem mid2_fresh : (mid2 : List (HloOp τ sig (Elt F))).Forall fun op => op.fresh = ∅ := by
  simp only [List.Forall]; repeat' constructor
theorem tail0_fresh : (tail0 : List (HloOp τ sig (Elt F))).Forall fun op => op.fresh = ∅ := by
  simp only [List.Forall]; repeat' constructor
theorem tail1_fresh : (tail1 : List (HloOp τ sig (Elt F))).Forall fun op => op.fresh = ∅ := by
  simp only [List.Forall]; repeat' constructor
theorem tail2_fresh : (tail2 : List (HloOp τ sig (Elt F))).Forall fun op => op.fresh = ∅ := by
  simp only [List.Forall]; repeat' constructor

/-- No operation allocates a buffer. -/
theorem allOps_fresh : (List.flatten (allOps (F := F))).Forall fun op => op.fresh = ∅ :=
  forall_flatten (by simp only [List.Forall]; exact ⟨pre0_fresh, pre1_fresh, pre2_fresh, pre3_fresh, pre4_fresh, pre5_fresh, pre6_fresh, pre7_fresh, pre8_fresh, mid0_fresh, mid1_fresh, mid2_fresh, tail0_fresh, tail1_fresh, tail2_fresh⟩)

/-- The reference runs to the fold of its operations over the launch contents, buffer by buffer. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (List.flatten (allOps (F := F))) (launchContents m c) (Proc.devRef .tc b) :=
  run_seq scopedRefs_eq scopedSems_eq defs main (fun _ => List.flatten (allOps (F := F))) main_eq (fun _ => allOps_sub) m ρ
    (fun _ => List.forall_iff_forall_mem.mp allOps_fresh)

/-- No operation writes argument 0. -/
theorem kept_arg0 (V : Valuation τ sig (Elt F)) :
    after (List.flatten (allOps (F := F))) V (Proc.devRef .tc main_arg0) = V (Proc.devRef .tc main_arg0) :=
  after_of_forall_not_mem (b := Proc.devRef .tc main_arg0) _ _ (List.forall_iff_forall_mem.mp (by
    simp only [allOps, pre0, pre1, pre2, pre3, pre4, pre5, pre6, pre7, pre8, mid0, mid1, mid2, tail0, tail1, tail2, List.flatten_cons, List.flatten_nil, List.append_nil, List.cons_append,
      List.nil_append, List.Forall, nullary_writes, unary_writes, binary_writes, ternary_writes, quaternary_writes, reshape_writes,
      binaryIndexed_writes, Finset.mem_singleton]
    repeat' apply And.intro
    all_goals exact devRef_ne_of_ne (by decide)))
/-- No operation writes argument 1. -/
theorem kept_arg1 (V : Valuation τ sig (Elt F)) :
    after (List.flatten (allOps (F := F))) V (Proc.devRef .tc main_arg1) = V (Proc.devRef .tc main_arg1) :=
  after_of_forall_not_mem (b := Proc.devRef .tc main_arg1) _ _ (List.forall_iff_forall_mem.mp (by
    simp only [allOps, pre0, pre1, pre2, pre3, pre4, pre5, pre6, pre7, pre8, mid0, mid1, mid2, tail0, tail1, tail2, List.flatten_cons, List.flatten_nil, List.append_nil, List.cons_append,
      List.nil_append, List.Forall, nullary_writes, unary_writes, binary_writes, ternary_writes, quaternary_writes, reshape_writes,
      binaryIndexed_writes, Finset.mem_singleton]
    repeat' apply And.intro
    all_goals exact devRef_ne_of_ne (by decide)))
/-- No operation writes argument 2. -/
theorem kept_arg2 (V : Valuation τ sig (Elt F)) :
    after (List.flatten (allOps (F := F))) V (Proc.devRef .tc main_arg2) = V (Proc.devRef .tc main_arg2) :=
  after_of_forall_not_mem (b := Proc.devRef .tc main_arg2) _ _ (List.forall_iff_forall_mem.mp (by
    simp only [allOps, pre0, pre1, pre2, pre3, pre4, pre5, pre6, pre7, pre8, mid0, mid1, mid2, tail0, tail1, tail2, List.flatten_cons, List.flatten_nil, List.append_nil, List.cons_append,
      List.nil_append, List.Forall, nullary_writes, unary_writes, binary_writes, ternary_writes, quaternary_writes, reshape_writes,
      binaryIndexed_writes, Finset.mem_singleton]
    repeat' apply And.intro
    all_goals exact devRef_ne_of_ne (by decide)))
/-- No operation writes argument 3. -/
theorem kept_arg3 (V : Valuation τ sig (Elt F)) :
    after (List.flatten (allOps (F := F))) V (Proc.devRef .tc main_arg3) = V (Proc.devRef .tc main_arg3) :=
  after_of_forall_not_mem (b := Proc.devRef .tc main_arg3) _ _ (List.forall_iff_forall_mem.mp (by
    simp only [allOps, pre0, pre1, pre2, pre3, pre4, pre5, pre6, pre7, pre8, mid0, mid1, mid2, tail0, tail1, tail2, List.flatten_cons, List.flatten_nil, List.append_nil, List.cons_append,
      List.nil_append, List.Forall, nullary_writes, unary_writes, binary_writes, ternary_writes, quaternary_writes, reshape_writes,
      binaryIndexed_writes, Finset.mem_singleton]
    repeat' apply And.intro
    all_goals exact devRef_ne_of_ne (by decide)))
/-- No operation writes argument 4. -/
theorem kept_arg4 (V : Valuation τ sig (Elt F)) :
    after (List.flatten (allOps (F := F))) V (Proc.devRef .tc main_arg4) = V (Proc.devRef .tc main_arg4) :=
  after_of_forall_not_mem (b := Proc.devRef .tc main_arg4) _ _ (List.forall_iff_forall_mem.mp (by
    simp only [allOps, pre0, pre1, pre2, pre3, pre4, pre5, pre6, pre7, pre8, mid0, mid1, mid2, tail0, tail1, tail2, List.flatten_cons, List.flatten_nil, List.append_nil, List.cons_append,
      List.nil_append, List.Forall, nullary_writes, unary_writes, binary_writes, ternary_writes, quaternary_writes, reshape_writes,
      binaryIndexed_writes, Finset.mem_singleton]
    repeat' apply And.intro
    all_goals exact devRef_ne_of_ne (by decide)))
/-- No operation writes argument 5. -/
theorem kept_arg5 (V : Valuation τ sig (Elt F)) :
    after (List.flatten (allOps (F := F))) V (Proc.devRef .tc main_arg5) = V (Proc.devRef .tc main_arg5) :=
  after_of_forall_not_mem (b := Proc.devRef .tc main_arg5) _ _ (List.forall_iff_forall_mem.mp (by
    simp only [allOps, pre0, pre1, pre2, pre3, pre4, pre5, pre6, pre7, pre8, mid0, mid1, mid2, tail0, tail1, tail2, List.flatten_cons, List.flatten_nil, List.append_nil, List.cons_append,
      List.nil_append, List.Forall, nullary_writes, unary_writes, binary_writes, ternary_writes, quaternary_writes, reshape_writes,
      binaryIndexed_writes, Finset.mem_singleton]
    repeat' apply And.intro
    all_goals exact devRef_ne_of_ne (by decide)))

end Cert.ReferenceIdeal.RefRun

end
-- ==== Proof.Spec.lean ====
/-
  The grouped gated MLP as ONE function of its four arrays, index by index over the extended reals.

  For expert `e`, capacity row `c` and model column `d`:
    gate  = Σ_k x[e,c,k] · Wg[e,k,h]
    up    = Σ_k x[e,c,k] · Wu[e,k,h]
    y[e,c,d] = Σ_h ((gate · σ(gate)) · up) · Wd[e,h,d],   σ(t) = 1 / (1 + e^(-t)).
  Both programs compute exactly this array: the kernel one (expert, capacity tile) block at a time with three
  matrix products into zero, the reference with three batched contractions; sums over a finite index do not
  depend on tiling, and a change of float format is the identity on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The padded per-expert token buffer's shape, [experts, capacity, model]. -/
abbrev SX : Shape := ⟨3, ![8, 1536, 2048]⟩
/-- The gate and up weights' shape, [experts, model, hidden]. -/
abbrev SW : Shape := ⟨3, ![8, 2048, 688]⟩
/-- The down weights' shape, [experts, hidden, model]. -/
abbrev SD : Shape := ⟨3, ![8, 688, 2048]⟩

/-- The hidden activation at (expert, row, hidden unit): silu of the gate projection times the up projection. -/
def hid (xb : SX.Idx → EReal) (wg wu : SW.Idx → EReal) (e : Fin 8) (c : Fin 1536) (h : Fin 688) : EReal :=
  ((∑ k : Fin 2048, xb (ix3 e c k) * wg (ix3 e k h)) * Ideal.logistic (∑ k : Fin 2048, xb (ix3 e c k) * wg (ix3 e k h)))
    * (∑ k : Fin 2048, xb (ix3 e c k) * wu (ix3 e k h))

/-- The grouped MLP's output at (expert, row, column): the hidden activations against the down weights. -/
def gluAt (xb : SX.Idx → EReal) (wg wu : SW.Idx → EReal) (wd : SD.Idx → EReal) (e : Fin 8) (c : Fin 1536) (d : Fin 2048) : EReal :=
  ∑ h : Fin 688, hid xb wg wu e c h * wd (ix3 e h d)

/-- The grouped MLP's output array. -/
def glu (xb : SX.Idx → EReal) (wg wu : SW.Idx → EReal) (wd : SD.Idx → EReal) : SX.Idx → EReal :=
  fun i => gluAt xb wg wu wd (i 0) (i 1) (i 2)

theorem glu_ix3 (xb : SX.Idx → EReal) (wg wu : SW.Idx → EReal) (wd : SD.Idx → EReal) (e : Fin 8) (c : Fin 1536) (d : Fin 2048) :
    glu xb wg wu wd (ix3 e c d) = gluAt xb wg wu wd e c d := rfl

end Cert.Spec

end
-- ==== Proof.Prefix.lean ====
/-
  The dispatch prefix is the same computation in both programs: from launch contents that agree on the six arguments,
  the sorted expert ids, scores and token ids, the validity mask, the slot of every token copy and the padded
  per-expert buffer come out equal; the kernel's extra format changes are the identity on the extended reals.
-/
import proofs.«151311_j74380243632185_1_alg».proof.Proof.RefOps
import proofs.«151311_j74380243632185_1_alg».proof.Proof.Gen.KernelIdeal.Launch
import proofs.«151311_j74380243632185_1_alg».proof.Proof.Spec
import Idealize.ShloMosaic.Lib.StableHlo.Run

noncomputable section

open scoped BigOperators

namespace Cert.Bridge

open Idealize.ShloMosaic Idealize.ShloMosaic.TcCoe Idealize.SL.Sem Idealize.ShloMosaic.StableHlo

/-- A valuation of the kernel program's buffers, and of the reference's, over the extended reals. -/
abbrev VK := Valuation Cert.KernelIdeal.τ Cert.KernelIdeal.sig (Elt Ideal)
abbrev VR := Valuation Cert.ReferenceIdeal.τ Cert.ReferenceIdeal.sig (Elt Ideal)

/-- The kernel's buffers after its host operations before the region, stretch by stretch. -/
abbrev PK (W : VK) : VK :=
  after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4
    (after Cert.KernelIdeal.Gen.hostOps0_3 (after Cert.KernelIdeal.Gen.hostOps0_2 (after Cert.KernelIdeal.Gen.hostOps0_1 (after Cert.KernelIdeal.Gen.hostOps0 W))))))))
/-- The reference's buffers after the same prefix. -/
abbrev PR (W' : VR) : VR :=
  after Cert.ReferenceIdeal.RefOps.pre8 (after Cert.ReferenceIdeal.RefOps.pre7 (after Cert.ReferenceIdeal.RefOps.pre6 (after Cert.ReferenceIdeal.RefOps.pre5 (after Cert.ReferenceIdeal.RefOps.pre4
    (after Cert.ReferenceIdeal.RefOps.pre3 (after Cert.ReferenceIdeal.RefOps.pre2 (after Cert.ReferenceIdeal.RefOps.pre1 (after Cert.ReferenceIdeal.RefOps.pre0 W'))))))))

/-- The two launch contents agree on the six arguments. -/
structure ArgsAgree (W : VK) (W' : VR) : Prop where
  a0 : W' (Proc.devRef .tc Cert.ReferenceIdeal.main_arg0) = W (Proc.devRef .tc Cert.KernelIdeal.main_arg0)
  a1 : W' (Proc.devRef .tc Cert.ReferenceIdeal.main_arg1) = W (Proc.devRef .tc Cert.KernelIdeal.main_arg1)
  a2 : W' (Proc.devRef .tc Cert.ReferenceIdeal.main_arg2) = W (Proc.devRef .tc Cert.KernelIdeal.main_arg2)
  a3 : W' (Proc.devRef .tc Cert.ReferenceIdeal.main_arg3) = W (Proc.devRef .tc Cert.KernelIdeal.main_arg3)
  a4 : W' (Proc.devRef .tc Cert.ReferenceIdeal.main_arg4) = W (Proc.devRef .tc Cert.KernelIdeal.main_arg4)
  a5 : W' (Proc.devRef .tc Cert.ReferenceIdeal.main_arg5) = W (Proc.devRef .tc Cert.KernelIdeal.main_arg5)

/-! ## Agreement, one stretch at a time

Both programs run the same nine stretches of host operations over buffers of the same names. For each stretch, with the
contents before it arbitrary, the buffers that anything later reads come out equal whenever the buffers the stretch
reads went in equal: each side's fold is rewritten to the operations' functions applied to the contents before the
stretch, the inputs are identified, and what remains differs only in which program's (equal) dimension records it names.
A buffer the stretch does not write comes through unchanged on both sides. -/

/-- The reference's contents `W'` and the kernel's contents `W` are equal at the buffer both programs call `b`. -/
local macro "same " W':term:max W:term:max b:ident : term =>
  `($W' (Proc.devRef .tc $(Lean.mkIdent (`Cert.ReferenceIdeal ++ b.getId))) = $W (Proc.devRef .tc $(Lean.mkIdent (`Cert.KernelIdeal ++ b.getId))))

/-- The token rows and the three weight arrays: arguments no stretch writes, read only by the last one. -/
structure RestAgree (W : VK) (W' : VR) : Prop where
  a0 : same W' W main_arg0
  a3 : same W' W main_arg3
  a4 : same W' W main_arg4
  a5 : same W' W main_arg5

/-- After the reshapes: the flattened expert ids, scores and token ids. -/
structure Agree1 (W : VK) (W' : VR) : Prop where
  v0 : same W' W main_v0
  v1 : same W' W main_v1
  v4 : same W' W main_v4
  rest : RestAgree W W'

/-- After the stable argsort: also the sorting permutation. -/
structure Agree2 (W : VK) (W' : VR) : Prop where
  v0 : same W' W main_v0
  v1 : same W' W main_v1
  v4 : same W' W main_v4
  v5 : same W' W main_v5
  rest : RestAgree W W'

/-- After the three gathers: sorted expert ids, scores and token ids, the zero counts and the clip's lower bound. -/
structure Agree3 (W : VK) (W' : VR) : Prop where
  v12 : same W' W main_v12
  v19 : same W' W main_v19
  v26 : same W' W main_v26
  v27 : same W' W main_v27
  c6 : same W' W main_c_6
  rest : RestAgree W W'

/-- After the clip: also the clipped expert ids. -/
structure Agree4 (W : VK) (W' : VR) : Prop where
  v12 : same W' W main_v12
  v19 : same W' W main_v19
  v26 : same W' W main_v26
  v27 : same W' W main_v27
  v28 : same W' W main_v28
  rest : RestAgree W W'

/-- After the scatter-add: the per-expert counts. -/
structure Agree5 (W : VK) (W' : VR) : Prop where
  v12 : same W' W main_v12
  v19 : same W' W main_v19
  v26 : same W' W main_v26
  v36 : same W' W main_v36
  rest : RestAgree W W'

/-- After the cumulative sum: also the running totals. -/
structure Agree6 (W : VK) (W' : VR) : Prop where
  v12 : same W' W main_v12
  v19 : same W' W main_v19
  v26 : same W' W main_v26
  v36 : same W' W main_v36
  v37 : same W' W main_v37
  rest : RestAgree W W'

/-- After the positions: the validity mask, the unmasked slots and the overflow slot. -/
structure Agree7 (W : VK) (W' : VR) : Prop where
  v19 : same W' W main_v19
  v26 : same W' W main_v26
  v49 : same W' W main_v49
  v52 : same W' W main_v52
  c14 : same W' W main_c_14
  rest : RestAgree W W'

/-- After the select: the slots. -/
structure Agree8 (W : VK) (W' : VR) : Prop where
  v19 : same W' W main_v19
  v26 : same W' W main_v26
  v49 : same W' W main_v49
  v53 : same W' W main_v53
  rest : RestAgree W W'

/-- After the last stretch: also the padded per-expert buffer. -/
structure Agree9 (W : VK) (W' : VR) : Prop where
  v19 : same W' W main_v19
  v26 : same W' W main_v26
  v49 : same W' W main_v49
  v53 : same W' W main_v53
  v70 : same W' W main_v70
  rest : RestAgree W W'

/-- Stretch 0: the reshapes of the expert ids and scores, and the token ids from an iota. -/
theorem step0 (W : VK) (W' : VR) (h : ArgsAgree W W') :
    Agree1 (after Cert.KernelIdeal.Gen.hostOps0 W) (after Cert.ReferenceIdeal.RefOps.pre0 W') where
  v0 := by after_results_simp; rw [h.a1]; rfl
  v1 := by after_results_simp; rw [h.a2]; rfl
  v4 := by after_results_simp; rfl
  rest :=
    { a0 := by after_results_simp; exact h.a0
      a3 := by after_results_simp; exact h.a3
      a4 := by after_results_simp; exact h.a4
      a5 := by after_results_simp; exact h.a5 }

/-- Stretch 1: the stable argsort of the expert ids. -/
theorem step1 (W : VK) (W' : VR) (h : Agree1 W W') :
    Agree2 (after Cert.KernelIdeal.Gen.hostOps0_1 W) (after Cert.ReferenceIdeal.RefOps.pre1 W') where
  v0 := by after_results_simp; exact h.v0
  v1 := by after_results_simp; exact h.v1
  v4 := by after_results_simp; exact h.v4
  v5 := by after_results_simp; rw [h.v0]; rfl
  rest :=
    { a0 := by after_results_simp; exact h.rest.a0
      a3 := by after_results_simp; exact h.rest.a3
      a4 := by after_results_simp; exact h.rest.a4
      a5 := by after_results_simp; exact h.rest.a5 }

set_option maxHeartbeats 1000000 in
/-- Stretch 2: the three gathers along the sorting permutation, and two constants. -/
theorem step2 (W : VK) (W' : VR) (h : Agree2 W W') :
    Agree3 (after Cert.KernelIdeal.Gen.hostOps0_2 W) (after Cert.ReferenceIdeal.RefOps.pre2 W') where
  v12 := by after_results_simp; rw [h.v0, h.v5]; rfl
  v19 := by after_results_simp; rw [h.v1, h.v5]; rfl
  v26 := by after_results_simp; rw [h.v4, h.v5]; rfl
  v27 := by after_results_simp
  c6 := by after_results_simp
  rest :=
    { a0 := by after_results_simp; exact h.rest.a0
      a3 := by after_results_simp; exact h.rest.a3
      a4 := by after_results_simp; exact h.rest.a4
      a5 := by after_results_simp; exact h.rest.a5 }

/-- Stretch 3: the clip of the sorted expert ids from below. -/
theorem step3 (W : VK) (W' : VR) (h : Agree3 W W') :
    Agree4 (after Cert.KernelIdeal.Gen.hostOps0_3 W) (after Cert.ReferenceIdeal.RefOps.pre3 W') where
  v12 := by after_results_simp; exact h.v12
  v19 := by after_results_simp; exact h.v19
  v26 := by after_results_simp; exact h.v26
  v27 := by after_results_simp; exact h.v27
  v28 := by after_results_simp; rw [h.c6, h.v12]
  rest :=
    { a0 := by after_results_simp; exact h.rest.a0
      a3 := by after_results_simp; exact h.rest.a3
      a4 := by after_results_simp; exact h.rest.a4
      a5 := by after_results_simp; exact h.rest.a5 }

set_option maxHeartbeats 1000000 in
/-- Stretch 4: the per-expert counts, ones scatter-added at the clipped expert ids. -/
theorem step4 (W : VK) (W' : VR) (h : Agree4 W W') :
    Agree5 (after Cert.KernelIdeal.Gen.hostOps0_4 W) (after Cert.ReferenceIdeal.RefOps.pre4 W') where
  v12 := by after_results_simp; exact h.v12
  v19 := by after_results_simp; exact h.v19
  v26 := by after_results_simp; exact h.v26
  v36 := by after_results_simp; rw [h.v27, h.v28]; rfl
  rest :=
    { a0 := by after_results_simp; exact h.rest.a0
      a3 := by after_results_simp; exact h.rest.a3
      a4 := by after_results_simp; exact h.rest.a4
      a5 := by after_results_simp; exact h.rest.a5 }

/-- Stretch 5: the cumulative sum of the counts. -/
theorem step5 (W : VK) (W' : VR) (h : Agree5 W W') :
    Agree6 (after Cert.KernelIdeal.Gen.hostOps0_5 W) (after Cert.ReferenceIdeal.RefOps.pre5 W') where
  v12 := by after_results_simp; exact h.v12
  v19 := by after_results_simp; exact h.v19
  v26 := by after_results_simp; exact h.v26
  v36 := by after_results_simp; exact h.v36
  v37 := by after_results_simp; rw [h.v36]
  rest :=
    { a0 := by after_results_simp; exact h.rest.a0
      a3 := by after_results_simp; exact h.rest.a3
      a4 := by after_results_simp; exact h.rest.a4
      a5 := by after_results_simp; exact h.rest.a5 }

set_option maxHeartbeats 1000000 in
/-- Stretch 6: each copy's position within its expert, whether it fits, and its slot before masking. -/
theorem step6 (W : VK) (W' : VR) (h : Agree6 W W') :
    Agree7 (after Cert.KernelIdeal.Gen.hostOps0_6 W) (after Cert.ReferenceIdeal.RefOps.pre6 W') where
  v19 := by after_results_simp; exact h.v19
  v26 := by after_results_simp; exact h.v26
  v49 := by after_results_simp; rw [h.v37, h.v36, h.v12]; rfl
  v52 := by after_results_simp; rw [h.v12, h.v37, h.v36]; rfl
  c14 := by after_results_simp
  rest :=
    { a0 := by after_results_simp; exact h.rest.a0
      a3 := by after_results_simp; exact h.rest.a3
      a4 := by after_results_simp; exact h.rest.a4
      a5 := by after_results_simp; exact h.rest.a5 }

/-- Stretch 7: the slot of every copy, the overflow slot where it does not fit. -/
theorem step7 (W : VK) (W' : VR) (h : Agree7 W W') :
    Agree8 (after Cert.KernelIdeal.Gen.hostOps0_7 W) (after Cert.ReferenceIdeal.RefOps.pre7 W') where
  v19 := by after_results_simp; exact h.v19
  v26 := by after_results_simp; exact h.v26
  v49 := by after_results_simp; exact h.v49
  v53 := by after_results_simp; rw [h.c14, h.v49, h.v52]
  rest :=
    { a0 := by after_results_simp; exact h.rest.a0
      a3 := by after_results_simp; exact h.rest.a3
      a4 := by after_results_simp; exact h.rest.a4
      a5 := by after_results_simp; exact h.rest.a5 }

set_option maxHeartbeats 1000000 in
/-- Stretch 8: the gather of the token rows and their scatter into the padded per-expert buffer. -/
theorem step8 (W : VK) (W' : VR) (h : Agree8 W W') :
    Agree9 (after Cert.KernelIdeal.Gen.hostOps0_8 W) (after Cert.ReferenceIdeal.RefOps.pre8 W') where
  v19 := by after_results_simp; exact h.v19
  v26 := by after_results_simp; exact h.v26
  v49 := by after_results_simp; exact h.v49
  v53 := by after_results_simp; exact h.v53
  v70 := by after_results_simp; rw [h.v53, h.rest.a0, h.v26]; rfl
  rest :=
    { a0 := by after_results_simp; exact h.rest.a0
      a3 := by after_results_simp; exact h.rest.a3
      a4 := by after_results_simp; exact h.rest.a4
      a5 := by after_results_simp; exact h.rest.a5 }

/-- The nine stretches composed: from agreement on the arguments to agreement after the whole prefix. -/
theorem agree9 {W : VK} {W' : VR} (h : ArgsAgree W W') : Agree9 (PK W) (PR W') :=
  step8 _ _ (step7 _ _ (step6 _ _ (step5 _ _ (step4 _ _ (step3 _ _ (step2 _ _ (step1 _ _ (step0 W W' h))))))))

/-! ## The kernel's format changes

Over the extended reals a narrowing of the float format leaves every entry as it is, so the four arrays the kernel
converts in its last stretch are the arrays they were converted from. -/

theorem truncf_ideal {s : Shape} {φ ψ : FTy} (x : FVec Ideal s φ) (h : ψ.bits < φ.bits) :
    (truncf ψ x h : s.Idx → EReal) = x := rfl

set_option maxHeartbeats 1000000 in
theorem conv_x (W : VK) :
    (after Cert.KernelIdeal.Gen.hostOps0_8 W (Proc.devRef .tc Cert.KernelIdeal.main_v71) : Cert.Spec.SX.Idx → EReal)
      = after Cert.KernelIdeal.Gen.hostOps0_8 W (Proc.devRef .tc Cert.KernelIdeal.main_v70) := by
  after_results_simp
  exact truncf_ideal _ _

set_option maxHeartbeats 1000000 in
theorem conv_wg (W : VK) :
    (after Cert.KernelIdeal.Gen.hostOps0_8 W (Proc.devRef .tc Cert.KernelIdeal.main_v72) : Cert.Spec.SW.Idx → EReal)
      = after Cert.KernelIdeal.Gen.hostOps0_8 W (Proc.devRef .tc Cert.KernelIdeal.main_arg3) := by
  after_results_simp
  exact truncf_ideal _ _

set_option maxHeartbeats 1000000 in
theorem conv_wu (W : VK) :
    (after Cert.KernelIdeal.Gen.hostOps0_8 W (Proc.devRef .tc Cert.KernelIdeal.main_v73) : Cert.Spec.SW.Idx → EReal)
      = after Cert.KernelIdeal.Gen.hostOps0_8 W (Proc.devRef .tc Cert.KernelIdeal.main_arg4) := by
  after_results_simp
  exact truncf_ideal _ _

set_option maxHeartbeats 1000000 in
theorem conv_wd (W : VK) :
    (after Cert.KernelIdeal.Gen.hostOps0_8 W (Proc.devRef .tc Cert.KernelIdeal.main_v74) : Cert.Spec.SD.Idx → EReal)
      = after Cert.KernelIdeal.Gen.hostOps0_8 W (Proc.devRef .tc Cert.KernelIdeal.main_arg5) := by
  after_results_simp
  exact truncf_ideal _ _

/-! ## The prefix as a whole -/

variable {W : VK} {W' : VR}

/-- Sorted scores. -/
theorem prefix_v19 (h : ArgsAgree W W') : PR W' (Proc.devRef .tc Cert.ReferenceIdeal.main_v19) = PK W (Proc.devRef .tc Cert.KernelIdeal.main_v19) :=
  (agree9 h).v19
/-- Sorted token ids. -/
theorem prefix_v26 (h : ArgsAgree W W') : PR W' (Proc.devRef .tc Cert.ReferenceIdeal.main_v26) = PK W (Proc.devRef .tc Cert.KernelIdeal.main_v26) :=
  (agree9 h).v26
/-- The validity mask. -/
theorem prefix_v49 (h : ArgsAgree W W') : PR W' (Proc.devRef .tc Cert.ReferenceIdeal.main_v49) = PK W (Proc.devRef .tc Cert.KernelIdeal.main_v49) :=
  (agree9 h).v49
/-- The slots. -/
theorem prefix_v53 (h : ArgsAgree W W') : PR W' (Proc.devRef .tc Cert.ReferenceIdeal.main_v53) = PK W (Proc.devRef .tc Cert.KernelIdeal.main_v53) :=
  (agree9 h).v53
/-- The padded per-expert buffer the kernel stages (after its format change) is the reference's. -/
theorem prefix_x (h : ArgsAgree W W') : (PK W (Proc.devRef .tc Cert.KernelIdeal.main_v71) : Cert.Spec.SX.Idx → EReal) = PR W' (Proc.devRef .tc Cert.ReferenceIdeal.main_v70) :=
  (conv_x _).trans (agree9 h).v70.symm
/-- The three weight arrays the kernel stages (after their format changes) are the reference's arguments, untouched by the prefix. -/
theorem prefix_wg (h : ArgsAgree W W') : (PK W (Proc.devRef .tc Cert.KernelIdeal.main_v72) : Cert.Spec.SW.Idx → EReal) = PR W' (Proc.devRef .tc Cert.ReferenceIdeal.main_arg3) :=
  (conv_wg _).trans (agree9 h).rest.a3.symm
theorem prefix_wu (h : ArgsAgree W W') : (PK W (Proc.devRef .tc Cert.KernelIdeal.main_v73) : Cert.Spec.SW.Idx → EReal) = PR W' (Proc.devRef .tc Cert.ReferenceIdeal.main_arg4) :=
  (conv_wu _).trans (agree9 h).rest.a4.symm
theorem prefix_wd (h : ArgsAgree W W') : (PK W (Proc.devRef .tc Cert.KernelIdeal.main_v74) : Cert.Spec.SD.Idx → EReal) = PR W' (Proc.devRef .tc Cert.ReferenceIdeal.main_arg5) :=
  (conv_wd _).trans (agree9 h).rest.a5.symm

end Cert.Bridge

end
-- ==== Proof.Tail.lean ====
/-
  The combine tail is the same computation in both programs: from buffers that agree on the sorted scores and token ids,
  the validity mask, the slots and the grouped MLP's output, the scatter-added result comes out equal.
-/
import proofs.«151311_j74380243632185_1_alg».proof.Proof.RefOps
import proofs.«151311_j74380243632185_1_alg».proof.Proof.Gen.KernelIdeal.Launch
import Idealize.ShloMosaic.Lib.StableHlo.Run
import Idealize.ShloMosaic.PureOps.Ideal
import Idealize.ShloMosaic.Lib.Pipeline.Frame

noncomputable section

open scoped BigOperators

namespace Cert.Bridge.Tail

open Idealize.ShloMosaic Idealize.ShloMosaic.TcCoe Idealize.SL.Sem Idealize.ShloMosaic.StableHlo

abbrev VK := Valuation Cert.KernelIdeal.τ Cert.KernelIdeal.sig (Elt Ideal)
abbrev VR := Valuation Cert.ReferenceIdeal.τ Cert.ReferenceIdeal.sig (Elt Ideal)

section Stretch

variable {F : FTy → Type} [FloatOps F]

local notation "VKF" => Valuation Cert.KernelIdeal.τ Cert.KernelIdeal.sig (Elt F)
local notation "VRF" => Valuation Cert.ReferenceIdeal.τ Cert.ReferenceIdeal.sig (Elt F)

/-- Three lines run one after the other. -/
theorem after_flatten3 {τ : Topo} {sig : RefSig} {Val : EltTy → Type} (a b c : List (HloOp τ sig Val)) (V : Valuation τ sig Val) :
    after (List.flatten [a, b, c]) V = after c (after b (after a V)) := by
  simp only [List.flatten_cons, List.flatten_nil, List.append_nil, StableHlo.after_append]

/-! ### First stretch: the gathered rows, the weights, the zero -/

set_option maxHeartbeats 1000000 in
/-- The gathered rows of the grouped MLP's output, at the wrapped clamped slots. -/
theorem t0_v85 (W : VKF) (W' : VRF)
    (hv53 : W' (Proc.devRef .tc Cert.ReferenceIdeal.main_v53) = W (Proc.devRef .tc Cert.KernelIdeal.main_v53))
    (hv75 : W' (Proc.devRef .tc Cert.ReferenceIdeal.main_v75) = W (Proc.devRef .tc Cert.KernelIdeal.main_v75)) :
    after Cert.ReferenceIdeal.RefOps.tail0 W' (Proc.devRef .tc Cert.ReferenceIdeal.main_v85)
      = after Cert.KernelIdeal.Gen.hostOps1 W (Proc.devRef .tc Cert.KernelIdeal.main_v85) := by
  after_results_simp
  rw [hv53, hv75] <;> rfl

set_option maxHeartbeats 1000000 in
/-- The weights: the sorted scores times one. -/
theorem t0_v87 (W : VKF) (W' : VRF)
    (hv19 : W' (Proc.devRef .tc Cert.ReferenceIdeal.main_v19) = W (Proc.devRef .tc Cert.KernelIdeal.main_v19)) :
    after Cert.ReferenceIdeal.RefOps.tail0 W' (Proc.devRef .tc Cert.ReferenceIdeal.main_v87)
      = after Cert.KernelIdeal.Gen.hostOps1 W (Proc.devRef .tc Cert.KernelIdeal.main_v87) := by
  after_results_simp
  rw [hv19] <;> rfl

set_option maxHeartbeats 1000000 in
/-- The zero the invalid weights are replaced by. -/
theorem t0_cst_23 (W : VKF) (W' : VRF) :
    after Cert.ReferenceIdeal.RefOps.tail0 W' (Proc.devRef .tc Cert.ReferenceIdeal.main_cst_23)
      = after Cert.KernelIdeal.Gen.hostOps1 W (Proc.devRef .tc Cert.KernelIdeal.main_cst_23) := by
  after_results_simp <;> rfl

set_option maxHeartbeats 1000000 in
/-- The validity mask is not written by the first stretch. -/
theorem t0_v49 (W : VKF) (W' : VRF)
    (hv49 : W' (Proc.devRef .tc Cert.ReferenceIdeal.main_v49) = W (Proc.devRef .tc Cert.KernelIdeal.main_v49)) :
    after Cert.ReferenceIdeal.RefOps.tail0 W' (Proc.devRef .tc Cert.ReferenceIdeal.main_v49)
      = after Cert.KernelIdeal.Gen.hostOps1 W (Proc.devRef .tc Cert.KernelIdeal.main_v49) := by
  after_results_simp
  exact hv49

set_option maxHeartbeats 1000000 in
/-- The sorted token ids are not written by the first stretch. -/
theorem t0_v26 (W : VKF) (W' : VRF)
    (hv26 : W' (Proc.devRef .tc Cert.ReferenceIdeal.main_v26) = W (Proc.devRef .tc Cert.KernelIdeal.main_v26)) :
    after Cert.ReferenceIdeal.RefOps.tail0 W' (Proc.devRef .tc Cert.ReferenceIdeal.main_v26)
      = after Cert.KernelIdeal.Gen.hostOps1 W (Proc.devRef .tc Cert.KernelIdeal.main_v26) := by
  after_results_simp
  exact hv26

/-! ### Second stretch: the outlined select -/

/-- The masked weights. -/
theorem t1_v88 (W : VKF) (W' : VRF)
    (hv49 : W' (Proc.devRef .tc Cert.ReferenceIdeal.main_v49) = W (Proc.devRef .tc Cert.KernelIdeal.main_v49))
    (hv87 : W' (Proc.devRef .tc Cert.ReferenceIdeal.main_v87) = W (Proc.devRef .tc Cert.KernelIdeal.main_v87))
    (hcst_23 : W' (Proc.devRef .tc Cert.ReferenceIdeal.main_cst_23) = W (Proc.devRef .tc Cert.KernelIdeal.main_cst_23)) :
    after Cert.ReferenceIdeal.RefOps.tail1 W' (Proc.devRef .tc Cert.ReferenceIdeal.main_v88)
      = after Cert.KernelIdeal.Gen.hostOps1_1 W (Proc.devRef .tc Cert.KernelIdeal.main_v88) := by
  after_results_simp
  rw [hv49, hv87, hcst_23] <;> rfl

/-- The gathered rows are not written by the select. -/
theorem t1_v85 (W : VKF) (W' : VRF)
    (hv85 : W' (Proc.devRef .tc Cert.ReferenceIdeal.main_v85) = W (Proc.devRef .tc Cert.KernelIdeal.main_v85)) :
    after Cert.ReferenceIdeal.RefOps.tail1 W' (Proc.devRef .tc Cert.ReferenceIdeal.main_v85)
      = after Cert.KernelIdeal.Gen.hostOps1_1 W (Proc.devRef .tc Cert.KernelIdeal.main_v85) := by
  after_results_simp
  exact hv85

/-- The sorted token ids are not written by the select. -/
theorem t1_v26 (W : VKF) (W' : VRF)
    (hv26 : W' (Proc.devRef .tc Cert.ReferenceIdeal.main_v26) = W (Proc.devRef .tc Cert.KernelIdeal.main_v26)) :
    after Cert.ReferenceIdeal.RefOps.tail1 W' (Proc.devRef .tc Cert.ReferenceIdeal.main_v26)
      = after Cert.KernelIdeal.Gen.hostOps1_1 W (Proc.devRef .tc Cert.KernelIdeal.main_v26) := by
  after_results_simp
  exact hv26

/-! ### Third stretch: the weighted rows scatter-added at the wrapped token ids -/

set_option maxHeartbeats 1000000 in
/-- The result. -/
theorem t2_v99 (W : VKF) (W' : VRF)
    (hv88 : W' (Proc.devRef .tc Cert.ReferenceIdeal.main_v88) = W (Proc.devRef .tc Cert.KernelIdeal.main_v88))
    (hv85 : W' (Proc.devRef .tc Cert.ReferenceIdeal.main_v85) = W (Proc.devRef .tc Cert.KernelIdeal.main_v85))
    (hv26 : W' (Proc.devRef .tc Cert.ReferenceIdeal.main_v26) = W (Proc.devRef .tc Cert.KernelIdeal.main_v26)) :
    after Cert.ReferenceIdeal.RefOps.tail2 W' (Proc.devRef .tc Cert.ReferenceIdeal.main_v99)
      = after Cert.KernelIdeal.Gen.hostOps1_2 W (Proc.devRef .tc Cert.KernelIdeal.main_v99) := by
  after_results_simp
  rw [hv88, hv85, hv26] <;> rfl

end Stretch

/-- The result after the tail, from agreeing inputs of the tail. -/
theorem tail_agree (W : VK) (W' : VR)
    (h19 : W' (Proc.devRef .tc Cert.ReferenceIdeal.main_v19) = W (Proc.devRef .tc Cert.KernelIdeal.main_v19))
    (h26 : W' (Proc.devRef .tc Cert.ReferenceIdeal.main_v26) = W (Proc.devRef .tc Cert.KernelIdeal.main_v26))
    (h49 : W' (Proc.devRef .tc Cert.ReferenceIdeal.main_v49) = W (Proc.devRef .tc Cert.KernelIdeal.main_v49))
    (h53 : W' (Proc.devRef .tc Cert.ReferenceIdeal.main_v53) = W (Proc.devRef .tc Cert.KernelIdeal.main_v53))
    (h75 : W' (Proc.devRef .tc Cert.ReferenceIdeal.main_v75) = W (Proc.devRef .tc Cert.KernelIdeal.main_v75)) :
    after Cert.ReferenceIdeal.RefOps.tail2 (after Cert.ReferenceIdeal.RefOps.tail1 (after Cert.ReferenceIdeal.RefOps.tail0 W')) (Proc.devRef .tc Cert.ReferenceIdeal.main_v99)
      = after (List.flatten [Cert.KernelIdeal.Gen.hostOps1, Cert.KernelIdeal.Gen.hostOps1_1, Cert.KernelIdeal.Gen.hostOps1_2]) W (Proc.devRef .tc Cert.KernelIdeal.main_v99) := by
  rw [after_flatten3]
  exact t2_v99 _ _
    (t1_v88 _ _ (t0_v49 W W' h49) (t0_v87 W W' h19) (t0_cst_23 W W'))
    (t1_v85 _ _ (t0_v85 W W' h53 h75))
    (t1_v26 _ _ (t0_v26 W W' h26))

end Cert.Bridge.Tail

end
-- ==== Proof.RefMid.lean ====
/-
  The reference's grouped MLP — three batched contractions around the outlined silu — read at an index is the
  specification's sum of sums; and it leaves the buffers the combine tail reads as they were.
-/
import proofs.«151311_j74380243632185_1_alg».proof.Proof.RefOps
import proofs.«151311_j74380243632185_1_alg».proof.Proof.Spec
import Idealize.ShloMosaic.Lib.StableHlo.Run
import Idealize.ShloMosaic.PureOps.Ideal.Laws
import Idealize.ShloMosaic.Lib.ValueIdx
import Idealize.ShloMosaic.Lib.StackMember
import Idealize.ShloMosaic.Lib.IdealHost

noncomputable section

open scoped BigOperators

namespace Cert.Bridge.RefMid

open Idealize.ShloMosaic Idealize.ShloMosaic.TcCoe Idealize.SL.Sem Idealize.ShloMosaic.StableHlo
open Idealize.ShloMosaic.ValueIdx

abbrev VR := Valuation Cert.ReferenceIdeal.τ Cert.ReferenceIdeal.sig (Elt Ideal)

/-- The buffers after the reference's grouped MLP. -/
abbrev MR (W' : VR) : VR := after Cert.ReferenceIdeal.RefOps.mid2 (after Cert.ReferenceIdeal.RefOps.mid1 (after Cert.ReferenceIdeal.RefOps.mid0 W'))

/-! ## The pieces read at an index -/

/-- The outlined silu as one array function: x · (1 / (1 + e^(-x))), the ones being broadcast scalar constants. -/
def siluArr (g : FVec Ideal Cert.ReferenceIdeal.S8x1536x688 .f32) : FVec Ideal Cert.ReferenceIdeal.S8x1536x688 .f32 :=
  mulf g
    (Host.divf
      (broadcastInDim Cert.ReferenceIdeal.S8x1536x688 ![] Cert.ReferenceIdeal.Gen.bcast_S_S8x1536x688
        (constant (F := Ideal) Cert.ReferenceIdeal.S_ .f32 0x3F800000#32))
      (addf
        (broadcastInDim Cert.ReferenceIdeal.S8x1536x688 ![] Cert.ReferenceIdeal.Gen.bcast_S_S8x1536x688
          (constant (F := Ideal) Cert.ReferenceIdeal.S_ .f32 0x3F800000#32))
        (Host.exp (Host.negf g))))

/-- At an index the outlined silu is the element times its logistic. -/
theorem siluArr_apply (g : FVec Ideal Cert.ReferenceIdeal.S8x1536x688 .f32) (i : Cert.ReferenceIdeal.S8x1536x688.Idx) :
    siluArr g i = g i * Ideal.logistic (g i) := by
  unfold siluArr
  rw [mulf_apply, hostDivf_apply, addf_apply, broadcastInDim_scalar_apply, constant_apply, Ideal.ofBits_one_f32]
  rfl

/-- The gate / up contraction at an index: the sum over the model axis. -/
theorem dotUp_apply (A : FVec Ideal Cert.ReferenceIdeal.S8x1536x2048 .f32) (B : FVec Ideal Cert.ReferenceIdeal.S8x2048x688 .f32)
    (e : Fin 8) (c : Fin 1536) (h : Fin 688) :
    Host.dotGeneral Cert.ReferenceIdeal.dot_S8x1536x2048_S8x2048x688_S8x1536x688_2_1_1_2_0_0 none A B (ix3 e c h)
      = ∑ k : Fin 2048, A (ix3 e c k) * B (ix3 e k h) :=
  StackMember.dotGeneral_stack_apply (G := 8) (m := 1536) (n := 688) (k := 2048)
    Cert.ReferenceIdeal.dot_S8x1536x2048_S8x2048x688_S8x1536x688_2_1_1_2_0_0.wf none A B e c h

/-- The down contraction at an index: the sum over the hidden axis. -/
theorem dotDown_apply (A : FVec Ideal Cert.ReferenceIdeal.S8x1536x688 .f32) (B : FVec Ideal Cert.ReferenceIdeal.S8x688x2048 .f32)
    (e : Fin 8) (c : Fin 1536) (d : Fin 2048) :
    Host.dotGeneral Cert.ReferenceIdeal.dot_S8x1536x688_S8x688x2048_S8x1536x2048_2_1_1_2_0_0 none A B (ix3 e c d)
      = ∑ h : Fin 688, A (ix3 e c h) * B (ix3 e h d) :=
  StackMember.dotGeneral_stack_apply (G := 8) (m := 1536) (n := 2048) (k := 688)
    Cert.ReferenceIdeal.dot_S8x1536x688_S8x688x2048_S8x1536x2048_2_1_1_2_0_0.wf none A B e c d

/-- The grouped MLP as one term over its four arrays. -/
def gluTerm (xb : FVec Ideal Cert.ReferenceIdeal.S8x1536x2048 .f32) (wg wu : FVec Ideal Cert.ReferenceIdeal.S8x2048x688 .f32)
    (wd : FVec Ideal Cert.ReferenceIdeal.S8x688x2048 .f32) : FVec Ideal Cert.ReferenceIdeal.S8x1536x2048 .f32 :=
  Host.dotGeneral Cert.ReferenceIdeal.dot_S8x1536x688_S8x688x2048_S8x1536x2048_2_1_1_2_0_0 none
    (mulf (siluArr (Host.dotGeneral Cert.ReferenceIdeal.dot_S8x1536x2048_S8x2048x688_S8x1536x688_2_1_1_2_0_0 none xb wg))
      (Host.dotGeneral Cert.ReferenceIdeal.dot_S8x1536x2048_S8x2048x688_S8x1536x688_2_1_1_2_0_0 none xb wu))
    wd

/-- The term at an index is the specification's sum of sums. -/
theorem gluTerm_apply (xb : FVec Ideal Cert.ReferenceIdeal.S8x1536x2048 .f32) (wg wu : FVec Ideal Cert.ReferenceIdeal.S8x2048x688 .f32)
    (wd : FVec Ideal Cert.ReferenceIdeal.S8x688x2048 .f32) (e : Fin 8) (c : Fin 1536) (d : Fin 2048) :
    gluTerm xb wg wu wd (ix3 e c d) = Cert.Spec.gluAt xb wg wu wd e c d := by
  unfold gluTerm Cert.Spec.gluAt Cert.Spec.hid
  rw [dotDown_apply]
  refine Finset.sum_congr rfl fun h _ => ?_
  rw [mulf_apply, siluArr_apply, dotUp_apply, dotUp_apply]

/-- The term is the specification's array. -/
theorem gluTerm_eq (xb : FVec Ideal Cert.ReferenceIdeal.S8x1536x2048 .f32) (wg wu : FVec Ideal Cert.ReferenceIdeal.S8x2048x688 .f32)
    (wd : FVec Ideal Cert.ReferenceIdeal.S8x688x2048 .f32) :
    (gluTerm xb wg wu wd : Cert.Spec.SX.Idx → EReal) = Cert.Spec.glu xb wg wu wd := by
  funext i
  rw [eq_ix3 i]
  exact gluTerm_apply xb wg wu wd (i 0) (i 1) (i 2)

/-- What the down contraction's buffer holds after the three lists, as the one term. -/
theorem mid_v75_term (W' : VR) :
    MR W' (Proc.devRef .tc Cert.ReferenceIdeal.main_v75)
      = gluTerm (W' (Proc.devRef .tc Cert.ReferenceIdeal.main_v70)) (W' (Proc.devRef .tc Cert.ReferenceIdeal.main_arg3))
          (W' (Proc.devRef .tc Cert.ReferenceIdeal.main_arg4)) (W' (Proc.devRef .tc Cert.ReferenceIdeal.main_arg5)) := by
  show after _ (after _ (after _ W')) _ = _
  after_results_simp
  rfl

/-! ## The statements -/

/-- The down contraction's result is the specification's array of the padded buffer and the three weight arguments. -/
theorem mid_v75 (W' : VR) :
    (MR W' (Proc.devRef .tc Cert.ReferenceIdeal.main_v75) : Cert.Spec.SX.Idx → EReal)
      = Cert.Spec.glu (W' (Proc.devRef .tc Cert.ReferenceIdeal.main_v70)) (W' (Proc.devRef .tc Cert.ReferenceIdeal.main_arg3)) (W' (Proc.devRef .tc Cert.ReferenceIdeal.main_arg4)) (W' (Proc.devRef .tc Cert.ReferenceIdeal.main_arg5)) := by
  rw [mid_v75_term]
  exact gluTerm_eq _ _ _ _

theorem mid_v19 (W' : VR) : MR W' (Proc.devRef .tc Cert.ReferenceIdeal.main_v19) = W' (Proc.devRef .tc Cert.ReferenceIdeal.main_v19) := by
  show after _ (after _ (after _ W')) _ = _
  after_results_simp
theorem mid_v26 (W' : VR) : MR W' (Proc.devRef .tc Cert.ReferenceIdeal.main_v26) = W' (Proc.devRef .tc Cert.ReferenceIdeal.main_v26) := by
  show after _ (after _ (after _ W')) _ = _
  after_results_simp
theorem mid_v49 (W' : VR) : MR W' (Proc.devRef .tc Cert.ReferenceIdeal.main_v49) = W' (Proc.devRef .tc Cert.ReferenceIdeal.main_v49) := by
  show after _ (after _ (after _ W')) _ = _
  after_results_simp
theorem mid_v53 (W' : VR) : MR W' (Proc.devRef .tc Cert.ReferenceIdeal.main_v53) = W' (Proc.devRef .tc Cert.ReferenceIdeal.main_v53) := by
  show after _ (after _ (after _ W')) _ = _
  after_results_simp

end Cert.Bridge.RefMid

end
-- ==== Proof.KerBody.lean ====
/-
  The kernel body's one stored value, read at an index of its (1, 512, 2048) block: two matrix products of the token
  tile into zero, the logistic gate, and the product with the down weights — the specification's sum of sums on the tile.
-/
import proofs.«151311_j74380243632185_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge.KerBody

open Idealize.ShloMosaic Idealize.ShloMosaic.ValueIdx Cert.KernelIdeal Cert.KernelIdeal.Gen

/-- The gate/up product's left index keeps the row. -/
theorem lhsA_0 (j : S512x688.Idx) (k : dot_S512x2048_S2048x688_S512x688_1_0_0_1_n_n.contr.Idx) :
    (dot_S512x2048_S2048x688_S512x688_1_0_0_1_n_n.lhsIdx j k 0).val = (j 0).val := by
  simp [DotDims.lhsIdx, dot_S512x2048_S2048x688_S512x688_1_0_0_1_n_n]; rfl

/-- ... and reads the contracted coordinate on its second axis. -/
theorem lhsA_1 (j : S512x688.Idx) (k : dot_S512x2048_S2048x688_S512x688_1_0_0_1_n_n.contr.Idx) :
    (dot_S512x2048_S2048x688_S512x688_1_0_0_1_n_n.lhsIdx j k 1).val = (k ⟨0, by decide⟩).val :=
  DotDims.lhsIdx_val_of_single _ (cl := 1) rfl j k

/-- The right index reads the contracted coordinate on its first axis ... -/
theorem rhsA_0 (j : S512x688.Idx) (k : dot_S512x2048_S2048x688_S512x688_1_0_0_1_n_n.contr.Idx) :
    (dot_S512x2048_S2048x688_S512x688_1_0_0_1_n_n.rhsIdx j k 0).val = (k ⟨0, by decide⟩).val :=
  DotDims.rhsIdx_val_of_single _ (cr := 0) rfl j k

/-- ... and keeps the column. -/
theorem rhsA_1 (j : S512x688.Idx) (k : dot_S512x2048_S2048x688_S512x688_1_0_0_1_n_n.contr.Idx) :
    (dot_S512x2048_S2048x688_S512x688_1_0_0_1_n_n.rhsIdx j k 1).val = (j 1).val := by
  simp [DotDims.rhsIdx, dot_S512x2048_S2048x688_S512x688_1_0_0_1_n_n]; rfl

/-- A [512, 2048] by [2048, 688] product into zero, at row `a` and column `b`, is the sum over the contracted coordinate. -/
theorem matmulA_apply {φ₁ φ₂ : FTy} (A : FVec Ideal S512x2048 φ₁) (B : FVec Ideal S2048x688 φ₂) (a : Fin 512) (b : Fin 688) :
    matmul dot_S512x2048_S2048x688_S512x688_1_0_0_1_n_n none A B (constant (F := Ideal) S512x688 .f32 0x00000000#32) (ix2 a b)
      = ∑ c : Fin 2048, A (ix2 a c) * B (ix2 c b) := by
  show FloatOps.matmul _ none A B _ (ix2 a b) = _
  rw [Ideal.matmul_constant_zero_apply,
    ← Equiv.sum_comp (contrEquiv1 dot_S512x2048_S2048x688_S512x688_1_0_0_1_n_n 2048 rfl rfl).symm]
  refine Finset.sum_congr rfl fun c _ => ?_
  have c2 := contrEquiv1_symm_val dot_S512x2048_S2048x688_S512x688_1_0_0_1_n_n 2048 rfl rfl c
  have l2 : dot_S512x2048_S2048x688_S512x688_1_0_0_1_n_n.lhsIdx (ix2 a b)
      ((contrEquiv1 dot_S512x2048_S2048x688_S512x688_1_0_0_1_n_n 2048 rfl rfl).symm c) = ix2 a c := by
    funext ax; apply Fin.ext
    match ax with
    | ⟨0, _⟩ => exact lhsA_0 _ _
    | ⟨1, _⟩ => exact (lhsA_1 _ _).trans c2
  have r2 : dot_S512x2048_S2048x688_S512x688_1_0_0_1_n_n.rhsIdx (ix2 a b)
      ((contrEquiv1 dot_S512x2048_S2048x688_S512x688_1_0_0_1_n_n 2048 rfl rfl).symm c) = ix2 c b := by
    funext ax; apply Fin.ext
    match ax with
    | ⟨0, _⟩ => exact (rhsA_0 _ _).trans c2
    | ⟨1, _⟩ => exact rhsA_1 _ _
  rw [l2, r2]

/-- The down product's left index keeps the row. -/
theorem lhsB_0 (j : S512x2048.Idx) (k : dot_S512x688_S688x2048_S512x2048_1_0_0_1_n_n.contr.Idx) :
    (dot_S512x688_S688x2048_S512x2048_1_0_0_1_n_n.lhsIdx j k 0).val = (j 0).val := by
  simp [DotDims.lhsIdx, dot_S512x688_S688x2048_S512x2048_1_0_0_1_n_n]; rfl

/-- ... and reads the contracted coordinate on its second axis. -/
theorem lhsB_1 (j : S512x2048.Idx) (k : dot_S512x688_S688x2048_S512x2048_1_0_0_1_n_n.contr.Idx) :
    (dot_S512x688_S688x2048_S512x2048_1_0_0_1_n_n.lhsIdx j k 1).val = (k ⟨0, by decide⟩).val :=
  DotDims.lhsIdx_val_of_single _ (cl := 1) rfl j k

/-- The right index reads the contracted coordinate on its first axis ... -/
theorem rhsB_0 (j : S512x2048.Idx) (k : dot_S512x688_S688x2048_S512x2048_1_0_0_1_n_n.contr.Idx) :
    (dot_S512x688_S688x2048_S512x2048_1_0_0_1_n_n.rhsIdx j k 0).val = (k ⟨0, by decide⟩).val :=
  DotDims.rhsIdx_val_of_single _ (cr := 0) rfl j k

/-- ... and keeps the column. -/
theorem rhsB_1 (j : S512x2048.Idx) (k : dot_S512x688_S688x2048_S512x2048_1_0_0_1_n_n.contr.Idx) :
    (dot_S512x688_S688x2048_S512x2048_1_0_0_1_n_n.rhsIdx j k 1).val = (j 1).val := by
  simp [DotDims.rhsIdx, dot_S512x688_S688x2048_S512x2048_1_0_0_1_n_n]; rfl

/-- A [512, 688] by [688, 2048] product into zero, at row `a` and column `b`, is the sum over the contracted coordinate. -/
theorem matmulB_apply {φ₁ φ₂ : FTy} (A : FVec Ideal S512x688 φ₁) (B : FVec Ideal S688x2048 φ₂) (a : Fin 512) (b : Fin 2048) :
    matmul dot_S512x688_S688x2048_S512x2048_1_0_0_1_n_n none A B (constant (F := Ideal) S512x2048 .f32 0x00000000#32) (ix2 a b)
      = ∑ c : Fin 688, A (ix2 a c) * B (ix2 c b) := by
  show FloatOps.matmul _ none A B _ (ix2 a b) = _
  rw [Ideal.matmul_constant_zero_apply,
    ← Equiv.sum_comp (contrEquiv1 dot_S512x688_S688x2048_S512x2048_1_0_0_1_n_n 688 rfl rfl).symm]
  refine Finset.sum_congr rfl fun c _ => ?_
  have c2 := contrEquiv1_symm_val dot_S512x688_S688x2048_S512x2048_1_0_0_1_n_n 688 rfl rfl c
  have l2 : dot_S512x688_S688x2048_S512x2048_1_0_0_1_n_n.lhsIdx (ix2 a b)
      ((contrEquiv1 dot_S512x688_S688x2048_S512x2048_1_0_0_1_n_n 688 rfl rfl).symm c) = ix2 a c := by
    funext ax; apply Fin.ext
    match ax with
    | ⟨0, _⟩ => exact lhsB_0 _ _
    | ⟨1, _⟩ => exact (lhsB_1 _ _).trans c2
  have r2 : dot_S512x688_S688x2048_S512x2048_1_0_0_1_n_n.rhsIdx (ix2 a b)
      ((contrEquiv1 dot_S512x688_S688x2048_S512x2048_1_0_0_1_n_n 688 rfl rfl).symm c) = ix2 c b := by
    funext ax; apply Fin.ext
    match ax with
    | ⟨0, _⟩ => exact (rhsB_0 _ _).trans c2
    | ⟨1, _⟩ => exact rhsB_1 _ _
  rw [l2, r2]

/-- The logistic of a vector at an index is the logistic of the element. -/
theorem logistic_apply {s : Shape} {φ : FTy} (x : FVec Ideal s φ) (i : s.Idx) : logistic x i = Ideal.logistic (x i) := rfl

/-- The token tile times one expert's [2048, 688] weights, both read through their dropped leading unit axis. -/
theorem proj_apply (x0 : Vec Ideal S1x512x2048 .bf16) (w : Vec Ideal S1x2048x688 .bf16) (r : Fin 512) (h : Fin 688) :
    matmul dot_S512x2048_S2048x688_S512x688_1_0_0_1_n_n none
        (shapeCast S512x2048 x0 shapeCasts_S1x512x2048_S512x2048 : FVec Ideal S512x2048 .bf16)
        (shapeCast S2048x688 w shapeCasts_S1x2048x688_S2048x688 : FVec Ideal S2048x688 .bf16)
        (constant (F := Ideal) S512x688 .f32 0x00000000#32) (ix2 r h)
      = ∑ k : Fin 2048, x0 (ix3 (0 : Fin 1) r k) * w (ix3 (0 : Fin 1) k h) := by
  refine (matmulA_apply _ _ r h).trans (Finset.sum_congr rfl fun k _ => ?_)
  rw [shapeCast_1ab_ab_apply, shapeCast_1ab_ab_apply]

/-- The stored tile at row `r`, column `d`. -/
theorem pay_apply (x0 : Vec Ideal S1x512x2048 .bf16) (x1 x2 : Vec Ideal S1x2048x688 .bf16) (x3 : Vec Ideal S1x688x2048 .bf16)
    (r : Fin 512) (d : Fin 2048) :
    k0_pay1 (F := Ideal) x0 x1 x2 x3 (ix3 (0 : Fin 1) r d)
      = ∑ h : Fin 688,
          (((∑ k : Fin 2048, x0 (ix3 (0 : Fin 1) r k) * x1 (ix3 (0 : Fin 1) k h))
              * Ideal.logistic (∑ k : Fin 2048, x0 (ix3 (0 : Fin 1) r k) * x1 (ix3 (0 : Fin 1) k h)))
            * (∑ k : Fin 2048, x0 (ix3 (0 : Fin 1) r k) * x2 (ix3 (0 : Fin 1) k h)))
          * x3 (ix3 (0 : Fin 1) h d) := by
  unfold k0_pay1
  refine (shapeCast_ab_1ab_apply _ _ (0 : Fin 1) r d).trans ?_
  refine (matmulB_apply _ _ r d).trans (Finset.sum_congr rfl fun h _ => ?_)
  rw [truncf_apply, mulf_apply, mulf_apply, logistic_apply, proj_apply, proj_apply, shapeCast_1ab_ab_apply]

end Cert.Bridge.KerBody

end
-- ==== Proof.KerArray.lean ====
/-
  From blocks to the array: grid point (expert, capacity tile) writes back rows tile·512 … tile·512+511 of expert's
  slab, the 24 blocks tile the whole output, and each is the specification's array restricted to it.
-/
import proofs.«151311_j74380243632185_1_alg».proof.Proof.Gen.KernelIdeal.Frame
import proofs.«151311_j74380243632185_1_alg».proof.Proof.KerBody
import proofs.«151311_j74380243632185_1_alg».proof.Proof.Spec
import Idealize.ShloMosaic.Lib.Pipeline.Value

noncomputable section

open scoped BigOperators

namespace Cert.Bridge.KerArray

open Idealize.ShloMosaic Idealize.ShloMosaic.TcCoe Idealize.SL.Sem Idealize.ShloMosaic.ValueIdx Cert.KernelIdeal Cert.KernelIdeal.Gen
open Idealize.ShloMosaic.Pipeline (Dat Cfg Window)

variable (m : (ℓ : Loc nD τ sig) → Buf (Elt Ideal) ℓ)

/-- The zero offset of the body's whole-block accesses. -/
theorem zero_off : (![0, 0, 0] : Fin 3 → Nat) = fun _ => 0 := funext fun a => by fin_cases a <;> rfl

/-- The printed index maps, decided over the grid: the token window moves with the output's block (expert, capacity
    tile, 0); each weight window sits at (expert, 0, 0); the output's block indices stay in their ranges. -/
theorem index_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = 0
    ∧ win0_1.index t (2 : Fin 3) = 0
    ∧ win0_2.index t (0 : Fin 3) = win0_4.index t (0 : Fin 3)
    ∧ win0_2.index t (1 : Fin 3) = 0
    ∧ win0_2.index t (2 : Fin 3) = 0
    ∧ win0_3.index t (0 : Fin 3) = win0_4.index t (0 : Fin 3)
    ∧ win0_3.index t (1 : Fin 3) = 0
    ∧ win0_3.index t (2 : Fin 3) = 0
    ∧ win0_4.index t (0 : Fin 3) ≤ 7
    ∧ win0_4.index t (1 : Fin 3) ≤ 2
    ∧ win0_4.index t (2 : Fin 3) = 0 :=
  (by decide +kernel : ∀ t : Fin grid0.N, _)

/-- Every (expert, capacity tile) is some grid point's output block. -/
theorem index_onto : ∀ (q0 : Fin 8) (q1 : Fin 3), ∃ t : Fin cfg0.N, win0_4.index t = ![q0.val, q1.val, 0] :=
  (by decide +kernel : ∀ (q0 : Fin 8) (q1 : Fin 3), ∃ t : Fin grid0.N, win0_4.index t = ![q0.val, q1.val, 0])

/-- The body's payload at block coordinate (0, r, d), when its four blocks are the arrays read at expert `e`, the token
    block at row `r'`: the specification's array at (e, r', d). Both are the same sums. -/
theorem pay_eq_glu (xb : Cert.Spec.SX.Idx → EReal) (wg wu : Cert.Spec.SW.Idx → EReal) (wd : Cert.Spec.SD.Idx → EReal)
    (x0 : Vec Ideal S1x512x2048 .bf16) (x1 x2 : Vec Ideal S1x2048x688 .bf16) (x3 : Vec Ideal S1x688x2048 .bf16)
    (e : Fin 8) (r' : Fin 1536) (r : Fin 512) (d : Fin 2048)
    (h0 : ∀ k : Fin 2048, x0 (ix3 (0 : Fin 1) r k) = xb (ix3 e r' k))
    (h1 : ∀ (k : Fin 2048) (h : Fin 688), x1 (ix3 (0 : Fin 1) k h) = wg (ix3 e k h))
    (h2 : ∀ (k : Fin 2048) (h : Fin 688), x2 (ix3 (0 : Fin 1) k h) = wu (ix3 e k h))
    (h3 : ∀ h : Fin 688, x3 (ix3 (0 : Fin 1) h d) = wd (ix3 e h d)) :
    k0_pay1 (F := Ideal) x0 x1 x2 x3 (ix3 (0 : Fin 1) r d) = Cert.Spec.glu xb wg wu wd (ix3 e r' d) := by
  rw [Cert.Bridge.KerBody.pay_apply, Cert.Spec.glu_ix3]
  unfold Cert.Spec.gluAt Cert.Spec.hid
  simp only [h0, h1, h2, h3]
/-- Where an element of the output's block at point `t` sits in the output array: expert = the block's first index,
    row = capacity tile · 512 + the row inside the block, the same column. -/
theorem out_emb (t : Fin cfg0.N) (r : Fin 512) (d : Fin 2048) (e : Fin 8) (r' : Fin 1536)
    (he : e.val = win0_4.index t (0 : Fin 3)) (hr : r'.val = win0_4.index t (1 : Fin 3) * 512 + r.val) :
    ((cfg0.win 4).blk t).view.emb (ix3 (0 : Fin 1) r d) = ix3 e r' d := by
  obtain ⟨_, _, _, _, _, _, _, _, _, _, _, _, _, _, q2⟩ := index_facts t
  funext a; apply Fin.ext
  match a with
  | ⟨0, _⟩ => show win0_4.index t (0 : Fin 3) * 1 + 1 * (0 : Fin 1).val = e.val; rw [he]; simp
  | ⟨1, _⟩ => show win0_4.index t (1 : Fin 3) * 512 + 1 * r.val = r'.val; omega
  | ⟨2, _⟩ => show win0_4.index t (2 : Fin 3) * 2048 + 1 * d.val = d.val; omega

/-- The token window's block at point `t` of any contents `A` of the token array, read at (0, r, k): `A` at
    (expert, tile · 512 + r, k). -/
theorem tok_blk_read (c : Dev nD) (A : Buf (Elt Ideal) ((c : Thread nD τ).loc main_v71)) (t : Fin cfg0.N)
    (r : Fin 512) (k : Fin 2048) (e : Fin 8) (r' : Fin 1536)
    (he : e.val = win0_4.index t (0 : Fin 3)) (hr : r'.val = win0_4.index t (1 : Fin 3) * 512 + r.val) :
    (((cfg0.win 0).blk t).view.read (Elt Ideal) A : Vec Ideal S1x512x2048 .bf16) (ix3 (0 : Fin 1) r k) = A (ix3 e r' k) := by
  obtain ⟨p0, p1, p2, _⟩ := index_facts t
  have hemb : ((cfg0.win 0).blk t).view.emb (ix3 (0 : Fin 1) r k) = ix3 e r' k := by
    funext a; apply Fin.ext
    match a with
    | ⟨0, _⟩ => show win0_0.index t (0 : Fin 3) * 1 + 1 * (0 : Fin 1).val = e.val; rw [he, p0]; simp
    | ⟨1, _⟩ => show win0_0.index t (1 : Fin 3) * 512 + 1 * r.val = r'.val; omega
    | ⟨2, _⟩ => show win0_0.index t (2 : Fin 3) * 2048 + 1 * k.val = k.val; omega
  rw [View.read_apply, hemb]
  rfl

/-- The gate weights' window's block at point `t` of any contents `A`, read at (0, k, h): `A` at (expert, k, h). -/
theorem gate_blk_read (c : Dev nD) (A : Buf (Elt Ideal) ((c : Thread nD τ).loc main_v72)) (t : Fin cfg0.N)
    (k : Fin 2048) (h : Fin 688) (e : Fin 8) (he : e.val = win0_4.index t (0 : Fin 3)) :
    (((cfg0.win 1).blk t).view.read (Elt Ideal) A : Vec Ideal S1x2048x688 .bf16) (ix3 (0 : Fin 1) k h) = A (ix3 e k h) := by
  obtain ⟨_, _, _, p0, p1, p2, _⟩ := index_facts t
  have hemb : ((cfg0.win 1).blk t).view.emb (ix3 (0 : Fin 1) k h) = ix3 e k h := by
    funext a; apply Fin.ext
    match a with
    | ⟨0, _⟩ => show win0_1.index t (0 : Fin 3) * 1 + 1 * (0 : Fin 1).val = e.val; rw [he, p0]; simp
    | ⟨1, _⟩ => show win0_1.index t (1 : Fin 3) * 2048 + 1 * k.val = k.val; omega
    | ⟨2, _⟩ => show win0_1.index t (2 : Fin 3) * 688 + 1 * h.val = h.val; omega
  rw [View.read_apply, hemb]
  rfl

/-- The up weights' window's block at point `t` of any contents `A`, read at (0, k, h): `A` at (expert, k, h). -/
theorem up_blk_read (c : Dev nD) (A : Buf (Elt Ideal) ((c : Thread nD τ).loc main_v73)) (t : Fin cfg0.N)
    (k : Fin 2048) (h : Fin 688) (e : Fin 8) (he : e.val = win0_4.index t (0 : Fin 3)) :
    (((cfg0.win 2).blk t).view.read (Elt Ideal) A : Vec Ideal S1x2048x688 .bf16) (ix3 (0 : Fin 1) k h) = A (ix3 e k h) := by
  obtain ⟨_, _, _, _, _, _, p0, p1, p2, _⟩ := index_facts t
  have hemb : ((cfg0.win 2).blk t).view.emb (ix3 (0 : Fin 1) k h) = ix3 e k h := by
    funext a; apply Fin.ext
    match a with
    | ⟨0, _⟩ => show win0_2.index t (0 : Fin 3) * 1 + 1 * (0 : Fin 1).val = e.val; rw [he, p0]; simp
    | ⟨1, _⟩ => show win0_2.index t (1 : Fin 3) * 2048 + 1 * k.val = k.val; omega
    | ⟨2, _⟩ => show win0_2.index t (2 : Fin 3) * 688 + 1 * h.val = h.val; omega
  rw [View.read_apply, hemb]
  rfl

/-- The down weights' window's block at point `t` of any contents `A`, read at (0, h, d): `A` at (expert, h, d). -/
theorem down_blk_read (c : Dev nD) (A : Buf (Elt Ideal) ((c : Thread nD τ).loc main_v74)) (t : Fin cfg0.N)
    (h : Fin 688) (d : Fin 2048) (e : Fin 8) (he : e.val = win0_4.index t (0 : Fin 3)) :
    (((cfg0.win 3).blk t).view.read (Elt Ideal) A : Vec Ideal S1x688x2048 .bf16) (ix3 (0 : Fin 1) h d) = A (ix3 e h d) := by
  obtain ⟨_, _, _, _, _, _, _, _, _, p0, p1, p2, _⟩ := index_facts t
  have hemb : ((cfg0.win 3).blk t).view.emb (ix3 (0 : Fin 1) h d) = ix3 e h d := by
    funext a; apply Fin.ext
    match a with
    | ⟨0, _⟩ => show win0_3.index t (0 : Fin 3) * 1 + 1 * (0 : Fin 1).val = e.val; rw [he, p0]; simp
    | ⟨1, _⟩ => show win0_3.index t (1 : Fin 3) * 688 + 1 * h.val = h.val; omega
    | ⟨2, _⟩ => show win0_3.index t (2 : Fin 3) * 2048 + 1 * d.val = d.val; omega
  rw [View.read_apply, hemb]
  rfl

/-- The four blocks at point `t` as the region finds the staged arrays. -/
theorem tok_read (c : Dev nD) (t : Fin cfg0.N) (r : Fin 512) (k : Fin 2048) (e : Fin 8) (r' : Fin 1536)
    (he : e.val = win0_4.index t (0 : Fin 3)) (hr : r'.val = win0_4.index t (1 : Fin 3) * 512 + r.val) :
    (iblk m c 0 t : Vec Ideal S1x512x2048 .bf16) (ix3 (0 : Fin 1) r k) = V m c main_v71 (ix3 e r' k) :=
  tok_blk_read c (V m c main_v71) t r k e r' he hr

theorem gate_read (c : Dev nD) (t : Fin cfg0.N) (k : Fin 2048) (h : Fin 688) (e : Fin 8)
    (he : e.val = win0_4.index t (0 : Fin 3)) :
    (iblk m c 1 t : Vec Ideal S1x2048x688 .bf16) (ix3 (0 : Fin 1) k h) = V m c main_v72 (ix3 e k h) :=
  gate_blk_read c (V m c main_v72) t k h e he

theorem up_read (c : Dev nD) (t : Fin cfg0.N) (k : Fin 2048) (h : Fin 688) (e : Fin 8)
    (he : e.val = win0_4.index t (0 : Fin 3)) :
    (iblk m c 2 t : Vec Ideal S1x2048x688 .bf16) (ix3 (0 : Fin 1) k h) = V m c main_v73 (ix3 e k h) :=
  up_blk_read c (V m c main_v73) t k h e he

theorem down_read (c : Dev nD) (t : Fin cfg0.N) (h : Fin 688) (d : Fin 2048) (e : Fin 8)
    (he : e.val = win0_4.index t (0 : Fin 3)) :
    (iblk m c 3 t : Vec Ideal S1x688x2048 .bf16) (ix3 (0 : Fin 1) h d) = V m c main_v74 (ix3 e h d) :=
  down_blk_read c (V m c main_v74) t h d e he

/-- An index of a (1, 512, 2048) block is (0, row, column). -/
theorem blk_idx (j : S1x512x2048.Idx) : ∃ (r : Fin 512) (d : Fin 2048), j = ix3 (0 : Fin 1) r d :=
  ⟨j 1, j 2, by
    funext a
    match a with
    | ⟨0, _⟩ => exact Fin.ext (by have h : (j 0).val < 1 := (j 0).isLt; show (j 0).val = 0; omega)
    | ⟨1, _⟩ => rfl
    | ⟨2, _⟩ => rfl⟩

/-- What point `t`'s body leaves at (0, r, d) of the output's buffer is the specification's array at the place of the
    output array where that element of the block sits. -/
theorem written_at (c : Dev nD) (t : Fin cfg0.N) (r : Fin 512) (d : Fin 2048) :
    k0_pay1 (F := Ideal) (iblk m c 0 t) (iblk m c 1 t) (iblk m c 2 t) (iblk m c 3 t) (ix3 (0 : Fin 1) r d)
      = Cert.Spec.glu (V m c main_v71) (V m c main_v72) (V m c main_v73) (V m c main_v74)
          (((cfg0.win 4).blk t).view.emb (ix3 (0 : Fin 1) r d)) := by
  obtain ⟨_, _, _, _, _, _, _, _, _, _, _, _, b0, b1, _⟩ := index_facts t
  have hr : r.val < 512 := r.isLt
  rw [out_emb t r d ⟨win0_4.index t (0 : Fin 3), by omega⟩ ⟨win0_4.index t (1 : Fin 3) * 512 + r.val, by omega⟩ rfl rfl]
  exact pay_eq_glu _ _ _ _ _ _ _ _ _ _ _ _
    (fun k => tok_read m c t r k _ _ rfl rfl) (fun k h => gate_read m c t k h _ rfl)
    (fun k h => up_read m c t k h _ rfl) (fun h => down_read m c t h d _ rfl)

/-- A buffer `X` of the output's block shape is block `t` of contents `G` of the output array as soon as it agrees with
    `G` at every (0, r, d), read where that element of the block sits in the array. -/
theorem cut_eq_read_blk (G : Cert.Spec.SX.Idx → EReal) (t : Fin cfg0.N) (X : Vec Ideal S1x512x2048 .f32)
    (h : ∀ (r : Fin 512) (d : Fin 2048), X (ix3 (0 : Fin 1) r d) = G (((cfg0.win 4).blk t).view.emb (ix3 (0 : Fin 1) r d))) :
    (cfg0.win 4).cut (grid0.coords t) X = ((cfg0.win 4).blk t).view.read (Elt Ideal) G := by
  funext j
  obtain ⟨r, d, rfl⟩ := blk_idx j
  rw [View.read_apply]
  exact h r d

/-- WHAT POINT `t` WRITES BACK is block `t` of the specification's array of the four staged arrays. -/
theorem flushed_eq (c : Dev nD) (t : Fin cfg0.N) :
    (dats (F := Ideal) m 0 c).flushed 4 t
      = ((cfg0.win 4).blk t).view.read (Elt Ideal)
          (Cert.Spec.glu (V m c main_v71) (V m c main_v72) (V m c main_v73) (V m c main_v74)) := by
  show (cfg0.win 4).cut (grid0.coords t) ((dats (F := Ideal) m 0 c).after 4 t) = _
  rw [after0_4]
  unfold out0_4
  rw [View.canon_unit_zero zero_off]
  simp only [View.ld_unit_zero (S := S1x512x2048) zero_off, View.ld_unit_zero (S := S1x2048x688) zero_off,
    View.ld_unit_zero (S := S1x688x2048) zero_off]
  exact cut_eq_read_blk (Cert.Spec.glu (V m c main_v71) (V m c main_v72) (V m c main_v73) (V m c main_v74)) t
    (k0_pay1 (F := Ideal) (iblk m c 0 t) (iblk m c 1 t) (iblk m c 2 t) (iblk m c 3 t)) (fun r d => written_at m c t r d)

/-- An index of the output array is in point `t`'s block iff each coordinate is in the block's range on its axis. -/
theorem mem_blk (t : Fin cfg0.N) (i : S8x1536x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v75).slice (win0_4.rect t)).set ↔ _
  rw [View.set_slice_whole, Rect.mem_set_unit]
  exact Iff.rfl

/-- EVERY index of the output is in some point's block: (expert, row, column) is in block (expert, row / 512, 0). -/
theorem cover (i : S8x1536x2048.Idx) :
    ∃ t : Fin cfg0.N, (cfg0.win 4).flush t = true ∧ i ∈ ((cfg0.win 4).blk t).view.set := by
  have hi0 : (i 0).val < 8 := (i 0).isLt
  have hi1 : (i 1).val < 1536 := (i 1).isLt
  have hi2 : (i 2).val < 2048 := (i 2).isLt
  obtain ⟨t, ht⟩ := index_onto ⟨(i 0).val, by omega⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The output array after the region is the specification's array of the four staged arrays as the region finds them. -/
theorem arr4 (c : Dev nD) :
    (dats (F := Ideal) m 0 c).arrAt 4 cfg0.N
      = Cert.Spec.glu (V m c main_v71) (V m c main_v72) (V m c main_v73) (V m c main_v74) :=
  (dats (F := Ideal) m 0 c).arrAt_eq_of_cover 4
    (Cert.Spec.glu (V m c main_v71) (V m c main_v72) (V m c main_v73) (V m c main_v74))
    (fun t _ => flushed_eq m c t) cover

end Cert.Bridge.KerArray

end
-- ==== Proof.Assemble.lean ====
/-
  The assembly. Both programs are the same dispatch prefix, a grouped gated MLP, and the same combine tail; the prefix
  and the tail are carried as the same operations of equal inputs, and the MLP's output array is one function of the
  padded per-expert buffer and the three weight arrays on both sides (`Cert.Spec.glu`): in the kernel tile by tile
  over the (expert, capacity tile) grid, in the reference by three batched contractions.
-/
import proofs.«151311_j74380243632185_1_alg».proof.Defs
import proofs.«151311_j74380243632185_1_alg».proof.Proof.Gen.Kernel.Frame
import proofs.«151311_j74380243632185_1_alg».proof.Proof.Gen.KernelIdeal.Frame
import proofs.«151311_j74380243632185_1_alg».proof.Proof.Gen.ReferenceIdeal
import proofs.«151311_j74380243632185_1_alg».proof.Proof.Gen.Pre_finite_inputs
import proofs.«151311_j74380243632185_1_alg».proof.Proof.RefRun
import proofs.«151311_j74380243632185_1_alg».proof.Proof.Prefix
import proofs.«151311_j74380243632185_1_alg».proof.Proof.Tail
import proofs.«151311_j74380243632185_1_alg».proof.Proof.RefMid
import proofs.«151311_j74380243632185_1_alg».proof.Proof.KerArray
import Idealize.ShloMosaic.Lib.Pipeline.FrameSuffix

noncomputable section

namespace Cert.Bridge.Assemble

open Idealize.ShloMosaic Idealize.ShloMosaic.TcCoe Idealize.SL.Sem Idealize.ShloMosaic.StableHlo
open Cert.Bridge

/-! ## The kernel program's run, its result named -/

section KernelRun
open Cert.KernelIdeal Cert.KernelIdeal.Gen

variable (m : (ℓ : Loc nD τ sig) → Buf (Elt Ideal) ℓ) (ρ : Dev nD → PrngReg)

/-- The kernel's result buffer after the run, core by core: the tail's operations from the region's exit contents. -/
abbrev kres (c : Dev nD) : Buf (Elt Ideal) ((c.tc : Thread nD τ).loc main_v99) :=
  Pipeline.afterTail₀ cfgs (dats m) 0 (V0 m) [hostOps1, hostOps1_1, hostOps1_2] c main_v99

/-- Every weakly fair execution of the kernel program ends with the result at `kres` and the arguments unchanged. -/
theorem kernel_run : θ_run defs (onTc (τ := τ) (main (F := Ideal))) ⟨m, fun _ => 0, ρ⟩ (fun r => ∀ c : Dev nD,
      r.2.mem ((c.tc : Thread nD τ).loc main_v99) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v99 (Pipeline.mem_restRefs_of main_v99 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

/-- The region-entry contents are the prefix's stretches applied in order to the launch contents. -/
theorem V0_eq (c : Dev nD) : V0 m c = PK (fun b => m (c, b)) := by
  simp only [V0, List.flatten_cons, List.flatten_nil, List.append_nil, StableHlo.after_append]

end KernelRun

/-! ## The two results are equal -/

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's fold over all its operations, stretch by stretch. -/
theorem ref_all (V : VR) :
    after (List.flatten (Cert.ReferenceIdeal.RefRun.allOps (F := Ideal))) V
      = after Cert.ReferenceIdeal.RefOps.tail2 (after Cert.ReferenceIdeal.RefOps.tail1 (after Cert.ReferenceIdeal.RefOps.tail0
          (RefMid.MR (PR V)))) := by
  simp only [Cert.ReferenceIdeal.RefRun.allOps, List.flatten_cons, List.flatten_nil, List.append_nil, StableHlo.after_append]

/-- From launch contents that agree on the arguments, the reference's result is the kernel's. -/
theorem result_eq (c : Dev Cert.KernelIdeal.nD)
    (hag : ArgsAgree (fun b => m (c, b)) (launchContents m' c)) :
    after (List.flatten (Cert.ReferenceIdeal.RefRun.allOps (F := Ideal))) (launchContents m' c)
        (Proc.devRef .tc Cert.ReferenceIdeal.main_v99) = kres m c := by
  rw [ref_all]
  show _ = after (List.flatten [Cert.KernelIdeal.Gen.hostOps1, Cert.KernelIdeal.Gen.hostOps1_1, Cert.KernelIdeal.Gen.hostOps1_2])
    (Pipeline.withArrays (Cert.KernelIdeal.cfgs 0).spec c (Cert.KernelIdeal.Gen.V0 m c)
      fun w => (Cert.KernelIdeal.Gen.dats m 0 c).arrAt w (Cert.KernelIdeal.cfgs 0).N) (Proc.devRef .tc Cert.KernelIdeal.main_v99)
  refine Tail.tail_agree _ _ ?_ ?_ ?_ ?_ ?_
  · rw [RefMid.mid_v19, Pipeline.withArrays_of_ne _ c _ _ Cert.KernelIdeal.main_v19
      (by exact (by decide : ∀ w, Pipeline.arrRef Cert.KernelIdeal.spec0 w ≠ Cert.KernelIdeal.main_v19)), V0_eq]
    exact prefix_v19 hag
  · rw [RefMid.mid_v26, Pipeline.withArrays_of_ne _ c _ _ Cert.KernelIdeal.main_v26
      (by exact (by decide : ∀ w, Pipeline.arrRef Cert.KernelIdeal.spec0 w ≠ Cert.KernelIdeal.main_v26)), V0_eq]
    exact prefix_v26 hag
  · rw [RefMid.mid_v49, Pipeline.withArrays_of_ne _ c _ _ Cert.KernelIdeal.main_v49
      (by exact (by decide : ∀ w, Pipeline.arrRef Cert.KernelIdeal.spec0 w ≠ Cert.KernelIdeal.main_v49)), V0_eq]
    exact prefix_v49 hag
  · rw [RefMid.mid_v53, Pipeline.withArrays_of_ne _ c _ _ Cert.KernelIdeal.main_v53
      (by exact (by decide : ∀ w, Pipeline.arrRef Cert.KernelIdeal.spec0 w ≠ Cert.KernelIdeal.main_v53)), V0_eq]
    exact prefix_v53 hag
  · refine (RefMid.mid_v75 (PR _)).trans ?_
    refine Eq.trans ?_ (Pipeline.withArrays_arr Cert.KernelIdeal.spec0 Cert.KernelIdeal.Gen.launch0.win.arr_inj c _ _ 4).symm
    refine Eq.trans ?_ (KerArray.arr4 m c).symm
    show _ = Cert.Spec.glu (Cert.KernelIdeal.Gen.V0 m c (Proc.devRef .tc Cert.KernelIdeal.main_v71))
      (Cert.KernelIdeal.Gen.V0 m c (Proc.devRef .tc Cert.KernelIdeal.main_v72))
      (Cert.KernelIdeal.Gen.V0 m c (Proc.devRef .tc Cert.KernelIdeal.main_v73))
      (Cert.KernelIdeal.Gen.V0 m c (Proc.devRef .tc Cert.KernelIdeal.main_v74))
    rw [V0_eq, prefix_x hag, prefix_wg hag, prefix_wu hag, prefix_wd hag]

end Results

end Cert.Bridge.Assemble

end
-- ==== Proof.Claims.lean ====
/-
  The five claims: the two kernel frames are the generated frame runs; the reference's frame is its run with the result
  dropped; the ideal pass rewrote nothing; and the two results are equal (`Cert.Bridge.Assemble.result_eq`).
-/
import proofs.«151311_j74380243632185_1_alg».proof.Proof.Assemble
import Idealize.ShloMosaic.Adequacy
import Idealize.ShloMosaic.Init

noncomputable section

namespace Cert.Proof.Claims

open Idealize.ShloMosaic Idealize.ShloMosaic.TcCoe Idealize.SL.Sem Idealize.ShloMosaic.StableHlo
open Cert.Bridge Cert.Bridge.Assemble

theorem frame_k : Cert.frame_Kernel := fun m ρ _ => Cert.Kernel.Gen.frame m ρ

theorem frame_ki : Cert.frame_KernelIdeal := fun m ρ _ => Cert.KernelIdeal.Gen.frame m ρ

/-- The reference writes none of its arguments. -/
theorem frame_ri : Cert.frame_ReferenceIdeal := fun m ρ _ =>
  (θ_run Cert.ReferenceIdeal.defs _ _).mono (fun _ h c =>
      ⟨(h c Cert.ReferenceIdeal.main_arg0).trans (Cert.ReferenceIdeal.RefRun.kept_arg0 _),
       (h c Cert.ReferenceIdeal.main_arg1).trans (Cert.ReferenceIdeal.RefRun.kept_arg1 _),
       (h c Cert.ReferenceIdeal.main_arg2).trans (Cert.ReferenceIdeal.RefRun.kept_arg2 _),
       (h c Cert.ReferenceIdeal.main_arg3).trans (Cert.ReferenceIdeal.RefRun.kept_arg3 _),
       (h c Cert.ReferenceIdeal.main_arg4).trans (Cert.ReferenceIdeal.RefRun.kept_arg4 _),
       (h c Cert.ReferenceIdeal.main_arg5).trans (Cert.ReferenceIdeal.RefRun.kept_arg5 _)⟩)
    (Cert.ReferenceIdeal.RefRun.run (F := Ideal) m ρ)

theorem preserves : Cert.preserves_Kernel_KernelIdeal := trivial

/-- Both programs run, and from arguments that agree the reference's result is the kernel's, core by core. No
    finiteness is used: the two sides are the same sums of the same products. -/
theorem algebraic : Cert.algebraic_KernelIdeal_ReferenceIdeal := by
  intro m ρ m' ρ' _ hagree
  refine ⟨fun c => kres m c, kernel_run m ρ, ?_⟩
  refine (θ_run Cert.ReferenceIdeal.defs _ _).mono (fun _ h c =>
      ⟨(h c Cert.ReferenceIdeal.main_v99).trans (result_eq m m' c
          ⟨(hagree c).1, (hagree c).2.1, (hagree c).2.2.1, (hagree c).2.2.2.1, (hagree c).2.2.2.2.1, (hagree c).2.2.2.2.2⟩),
       (h c Cert.ReferenceIdeal.main_arg0).trans (Cert.ReferenceIdeal.RefRun.kept_arg0 _),
       (h c Cert.ReferenceIdeal.main_arg1).trans (Cert.ReferenceIdeal.RefRun.kept_arg1 _),
       (h c Cert.ReferenceIdeal.main_arg2).trans (Cert.ReferenceIdeal.RefRun.kept_arg2 _),
       (h c Cert.ReferenceIdeal.main_arg3).trans (Cert.ReferenceIdeal.RefRun.kept_arg3 _),
       (h c Cert.ReferenceIdeal.main_arg4).trans (Cert.ReferenceIdeal.RefRun.kept_arg4 _),
       (h c Cert.ReferenceIdeal.main_arg5).trans (Cert.ReferenceIdeal.RefRun.kept_arg5 _)⟩)
    (Cert.ReferenceIdeal.RefRun.run (F := Ideal) m' ρ')

end Cert.Proof.Claims

end
-- ==== Proof.lean ====
/-
  A mixture-of-experts layer: token copies are sorted by expert and scattered into a padded per-expert buffer, a grouped
  gated MLP runs on the buffer, and the rows are gathered back, weighted and scatter-added per token. The kernel program
  runs the MLP as a Pallas kernel over an (expert, capacity tile) grid with matrix products into zero; the reference
  runs it as three batched contractions. Dispatch and combine are the same host operations in both programs, so the
  claim comes down to the MLP's output array, which is one function of the buffer and the three weight arrays on both
  sides (Proof/Spec.lean): sums over finite index sets, whatever the tiling, and a format change is the identity on
  the extended reals. The claims are proved in Proof/Claims.lean; the witnesses of the programs' stated facts are the
  generated instances.
-/
import proofs.«151311_j74380243632185_1_alg».proof.Defs
import proofs.«151311_j74380243632185_1_alg».proof.Proof.Gen.Kernel
import proofs.«151311_j74380243632185_1_alg».proof.Proof.Gen.Kernel.Skeleton
import proofs.«151311_j74380243632185_1_alg».proof.Proof.Gen.Kernel.Launch
import proofs.«151311_j74380243632185_1_alg».proof.Proof.Gen.Kernel.Points
import proofs.«151311_j74380243632185_1_alg».proof.Proof.Gen.Kernel.Frame
import proofs.«151311_j74380243632185_1_alg».proof.Proof.Gen.KernelIdeal
import proofs.«151311_j74380243632185_1_alg».proof.Proof.Gen.KernelIdeal.Skeleton
import proofs.«151311_j74380243632185_1_alg».proof.Proof.Gen.KernelIdeal.Launch
import proofs.«151311_j74380243632185_1_alg».proof.Proof.Gen.KernelIdeal.Points
import proofs.«151311_j74380243632185_1_alg».proof.Proof.Gen.KernelIdeal.Frame
import proofs.«151311_j74380243632185_1_alg».proof.Proof.Gen.ReferenceIdeal
import proofs.«151311_j74380243632185_1_alg».proof.Proof.Gen.Pre_finite_inputs
import proofs.«151311_j74380243632185_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
